-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S12288x4096 : Shape := ⟨2, ![12288, 4096]⟩
abbrev S12288 : Shape := ⟨1, ![12288]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S12288x4096 .f32) (main_arg2 : FVec F S12288 .f32) (main_arg3 : FVec F S4096x4096 .f32) (main_arg4 : FVec F S4096 .f32) (main_arg5 : FVec F S4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S12288x4096 : Shape := ⟨2, ![12288, 4096]⟩
abbrev S12288 : Shape := ⟨1, ![12288]⟩
abbrev S4096x4096 : Shape := ⟨2, ![4096, 4096]⟩
abbrev S4096 : Shape := ⟨1, ![4096]⟩
abbrev S1x4096 : Shape := ⟨2, ![1, 4096]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S8192x4096, .f32⟩
  | .hbm, ⟨14, _⟩ => ⟨S8192x4096, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | .local _ .vmem, ⟨7, _⟩ => ⟨S512x128, .f32⟩
  | .local _ .vmem, ⟨8, _⟩ => ⟨S512x128, .f32⟩
  | .local _ .vmem, ⟨9, _⟩ => ⟨S4096x128, .f32⟩
  | .local _ .vmem, ⟨10, _⟩ => ⟨S4096x128, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S512x4096, .f32⟩
  | .local _ .vmem, ⟨15, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S12288x4096_S4096x4096_8192_0 : S12288x4096.Slices ![8192, 0] S4096x4096
  slices_S12288_S4096_8192 : S12288.Slices ![8192] S4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S512x128_S512x128 : S512x128.ShapeCasts S512x128
  reduces_S512x4096_S512 : S512x4096.Reduces [1] S512
  shapeCasts_S512_S512x1 : S512.ShapeCasts S512x1
  broadcasts_S512x1_S512x4096 : S512x1.Broadcasts S512x4096
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x4096.size a
  hwx0_0 : ∀ i : grid0.Coords, EltTy.bits .f32 = 32 ∨ (Rect.block (s := S8192x4096) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .f32 = 32 ∨ (Rect.block (s := S4096x4096) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .f32 = 32 ∨ (Rect.block (s := S8192x4096) S512x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x4096.size a
  hwx1_0 : ∀ i : grid1.Coords, EltTy.bits .f32 = 32 ∨ (Rect.block (s := S8192x4096) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x4096.size a
  hwx1_1 : ∀ i : grid1.Coords, EltTy.bits .f32 = 32 ∨ (Rect.block (s := S4096x4096) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x4096.size a ≤ S8192x4096.size a
  hwx1_5 : ∀ i : grid1.Coords, EltTy.bits .f32 = 32 ∨ (Rect.block (s := S8192x4096) S512x4096.size (cc1_transform_5 i) (hinb1_5 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S12288x4096 : Shape := ⟨2, ![12288, 4096]⟩
abbrev S12288 : Shape := ⟨1, ![12288]⟩
abbrev S4096x4096 : Shape := ⟨2, ![4096, 4096]⟩
abbrev S4096 : Shape := ⟨1, ![4096]⟩
abbrev S4096x12288 : Shape := ⟨2, ![4096, 12288]⟩
abbrev S8192x12288 : Shape := ⟨2, ![8192, 12288]⟩
abbrev S1x12288 : Shape := ⟨2, ![1, 12288]⟩
abbrev S8192x1x3x8x512 : Shape := ⟨5, ![8192, 1, 3, 8, 512]⟩
abbrev S3x8192x8x1x512 : Shape := ⟨5, ![3, 8192, 8, 1, 512]⟩
abbrev S1x8192x8x1x512 : Shape := ⟨5, ![1, 8192, 8, 1, 512]⟩
abbrev S8192x8x1x512 : Shape := ⟨4, ![8192, 8, 1, 512]⟩
abbrev S8192x8x1x1 : Shape := ⟨4, ![8192, 8, 1, 1]⟩
abbrev S_ : Shape := ⟨0, ![]⟩
abbrev S8192x8x1 : Shape := ⟨3, ![8192, 8, 1]⟩
abbrev S8192x1x8x512 : Shape := ⟨4, ![8192, 1, 8, 512]⟩
abbrev S1x4096 : Shape := ⟨2, ![1, 4096]⟩
abbrev S8192 : Shape := ⟨1, ![8192]⟩
abbrev S8192x1 : Shape := ⟨2, ![8192, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x12288, .f32⟩
  | .hbm, ⟨8, _⟩ => ⟨S8192x12288, .f32⟩
  | .hbm, ⟨9, _⟩ => ⟨S1x12288, .f32⟩
  | .hbm, ⟨10, _⟩ => ⟨S8192x12288, .f32⟩
  | .hbm, ⟨11, _⟩ => ⟨S8192x12288, .f32⟩
  | .hbm, ⟨12, _⟩ => ⟨S8192x1x3x8x512, .f32⟩
  | .hbm, ⟨13, _⟩ => ⟨S3x8192x8x1x512, .f32⟩
  | .hbm, ⟨14, _⟩ => ⟨S1x8192x8x1x512, .f32⟩
  | .hbm, ⟨15, _⟩ => ⟨S8192x8x1x512, .f32⟩
  | .hbm, ⟨16, _⟩ => ⟨S1x8192x8x1x512, .f32⟩
  | .hbm, ⟨17, _⟩ => ⟨S8192x8x1x512, .f32⟩
  | .hbm, ⟨18, _⟩ => ⟨S1x8192x8x1x512, .f32⟩
  | .hbm, ⟨19, _⟩ => ⟨S8192x8x1x512, .f32⟩
  | .hbm, ⟨20, _⟩ => ⟨S8192x8x1x1, .f32⟩
  | .hbm, ⟨21, _⟩ => ⟨S_, .f32⟩
  | .hbm, ⟨22, _⟩ => ⟨S8192x8x1x1, .f32⟩
  | .hbm, ⟨23, _⟩ => ⟨S8192x8x1x1, .f32⟩
  | .hbm, ⟨24, _⟩ => ⟨S_, .f32⟩
  | .hbm, ⟨25, _⟩ => ⟨S8192x8x1, .f32⟩
  | .hbm, ⟨26, _⟩ => ⟨S_, .f32⟩
  | .hbm, ⟨27, _⟩ => ⟨S8192x8x1, .f32⟩
  | .hbm, ⟨28, _⟩ => ⟨S8192x8x1, .f32⟩
  | .hbm, ⟨29, _⟩ => ⟨S8192x8x1x1, .f32⟩
  | .hbm, ⟨30, _⟩ => ⟨S8192x8x1x1, .f32⟩
  | .hbm, ⟨31, _⟩ => ⟨S8192x8x1x1, .f32⟩
  | .hbm, ⟨32, _⟩ => ⟨S_, .f32⟩
  | .hbm, ⟨33, _⟩ => ⟨S8192x8x1, .f32⟩
  | .hbm, ⟨34, _⟩ => ⟨S8192x8x1x1, .f32⟩
  | .hbm, ⟨35, _⟩ => ⟨S8192x8x1x1, .f32⟩
  | .hbm, ⟨36, _⟩ => ⟨S8192x8x1x512, .f32⟩
  | .hbm, ⟨37, _⟩ => ⟨S8192x1x8x512, .f32⟩
  | .hbm, ⟨38, _⟩ => ⟨S8192x4096, .f32⟩
  | .hbm, ⟨39, _⟩ => ⟨S4096x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .i32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x4096, .f32⟩
  | .hbm, ⟨58, _⟩ => ⟨S8192x4096, .f32⟩
  | .hbm, ⟨59, _⟩ => ⟨S8192x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x4096, .f32⟩
  | .hbm, ⟨81, _⟩ => ⟨S8192x4096, .f32⟩
  | .hbm, ⟨82, _⟩ => ⟨S1x4096, .f32⟩
  | .hbm, ⟨83, _⟩ => ⟨S8192x4096, .f32⟩
  | .hbm, ⟨84, _⟩ => ⟨S8192x4096, .f32⟩
  | .hbm, ⟨85, _⟩ => ⟨S1x4096, .f32⟩
  | .hbm, ⟨86, _⟩ => ⟨S8192x4096, .f32⟩
  | .hbm, ⟨87, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_cst_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_cst_1 : Ref sig .tc := ⟨.hbm, 61, rfl⟩
abbrev main_call0_v8 : Ref sig .tc := ⟨.hbm, 62, rfl⟩
abbrev main_call0_cst_2 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_cst_3 : Ref sig .tc := ⟨.hbm, 68, rfl⟩
abbrev main_call0_v13 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩

abbrev nD : Nat := 1
abbrev τ : Topo := Topo.v7x

variable {F : FTy → Type} [FloatOps F]

class Facts₀ : Prop where
  transposes_S12288x4096_S4096x12288_1_0 : S12288x4096.Transposes [1, 0] S4096x12288
  bcast_S12288_S1x12288_1 : S12288.BroadcastsInDim S1x12288 (![1] : Fin 1 → Fin S1x12288.rank)
  bcast_S1x12288_S8192x12288_0_1 : S1x12288.BroadcastsInDim S8192x12288 (![0, 1] : Fin 2 → Fin S8192x12288.rank)
  shapeCasts_S8192x12288_S8192x1x3x8x512 : S8192x12288.ShapeCasts S8192x1x3x8x512
  transposes_S8192x1x3x8x512_S3x8192x8x1x512_2_0_3_1_4 : S8192x1x3x8x512.Transposes [2, 0, 3, 1, 4] S3x8192x8x1x512
  slices_S3x8192x8x1x512_S1x8192x8x1x512_0_0_0_0_0 : S3x8192x8x1x512.Slices ![0, 0, 0, 0, 0] S1x8192x8x1x512
  shapeCasts_S1x8192x8x1x512_S8192x8x1x512 : S1x8192x8x1x512.ShapeCasts S8192x8x1x512
  slices_S3x8192x8x1x512_S1x8192x8x1x512_1_0_0_0_0 : S3x8192x8x1x512.Slices ![1, 0, 0, 0, 0] S1x8192x8x1x512
  slices_S3x8192x8x1x512_S1x8192x8x1x512_2_0_0_0_0 : S3x8192x8x1x512.Slices ![2, 0, 0, 0, 0] S1x8192x8x1x512
  bcast_S_S8192x8x1x1 : S_.BroadcastsInDim S8192x8x1x1 (![] : Fin 0 → Fin S8192x8x1x1.rank)
  reducesTo_S8192x8x1x1_S8192x8x1_d3 : S8192x8x1x1.ReducesTo [3] S8192x8x1
  h_S_ : 0 < S_.numel
  bcast_S_S8192x8x1 : S_.BroadcastsInDim S8192x8x1 (![] : Fin 0 → Fin S8192x8x1.rank)
  bcast_S8192x8x1_S8192x8x1x1_0_1_2 : S8192x8x1.BroadcastsInDim S8192x8x1x1 (![0, 1, 2] : Fin 3 → Fin S8192x8x1x1.rank)
  transposes_S8192x8x1x512_S8192x1x8x512_0_2_1_3 : S8192x8x1x512.Transposes [0, 2, 1, 3] S8192x1x8x512
  shapeCasts_S8192x1x8x512_S8192x4096 : S8192x1x8x512.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  dot_S8192x4096_S4096x12288_S8192x12288_1_0_0_1_n_n_wf : DotDims.WF S8192x4096 S4096x12288 S8192x12288 [1] [0] [0] [1] [] []
  dot_S8192x8x1x512_S8192x8x1x512_S8192x8x1x1_3_3_2_2_01_01_wf : DotDims.WF S8192x8x1x512 S8192x8x1x512 S8192x8x1x1 [3] [3] [2] [2] [0, 1] [0, 1]
  dot_S8192x8x1x1_S8192x8x1x512_S8192x8x1x512_3_2_2_3_01_01_wf : DotDims.WF S8192x8x1x1 S8192x8x1x512 S8192x8x1x512 [3] [2] [2] [3] [0, 1] [0, 1]
  dot_S8192x4096_S4096x4096_S8192x4096_1_0_0_1_n_n_wf : DotDims.WF S8192x4096 S4096x4096 S8192x4096 [1] [0] [0] [1] [] []

variable [Facts₀]

def dot_S8192x4096_S4096x12288_S8192x12288_1_0_0_1_n_n : DotDims S8192x4096 S4096x12288 S8192x12288 where
  lhsContracting := [1]
  rhsContracting := [0]
  lhsNonContracting := [0]
  rhsNonContracting := [1]
  lhsBatch := []
  rhsBatch := []
  wf := dot_S8192x4096_S4096x12288_S8192x12288_1_0_0_1_n_n_wf
def dot_S8192x8x1x512_S8192x8x1x512_S8192x8x1x1_3_3_2_2_01_01 : DotDims S8192x8x1x512 S8192x8x1x512 S8192x8x1x1 where
  lhsContracting := [3]
  rhsContracting := [3]
  lhsNonContracting := [2]
  rhsNonContracting := [2]
  lhsBatch := [0, 1]
  rhsBatch := [0, 1]
  wf := dot_S8192x8x1x512_S8192x8x1x512_S8192x8x1x1_3_3_2_2_01_01_wf
def dot_S8192x8x1x1_S8192x8x1x512_S8192x8x1x512_3_2_2_3_01_01 : DotDims S8192x8x1x1 S8192x8x1x512 S8192x8x1x512 where
  lhsContracting := [3]
  rhsContracting := [2]
  lhsNonContracting := [2]
  rhsNonContracting := [3]
  lhsBatch := [0, 1]
  rhsBatch := [0, 1]
  wf := dot_S8192x8x1x1_S8192x8x1x512_S8192x8x1x512_3_2_2_3_01_01_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LayerSpec.lean ====
/-
  The function both programs compute, over the extended reals, written once and over plain coordinates.

  An affine layer takes a row `x` of 4096 features to `x · Wᵀ + b`:  `dense X W b R n = (∑ k, X R k · W n k) + b n`.
  A row's layer normalisation is `lnRow y γ β n = (y n - μ) · rsqrt (σ² + ε) · γ n + β n` with `μ = (∑ y) / 4096`,
  `σ² = (∑ (y - μ)²) / 4096`, the divisor `4096` and `ε` kept as the binary words both programs print.

  The attention of the reference runs over a sequence of length ONE: the softmax of a single finite logit is `1`, so a head's
  output is its value row, and the whole layer is the value third of the fused projection, then the output projection,
  then the normalisation: `attnNorm`.  The value third of the fused weights is rows `8192 … 12287`: `vthird`.

  Two laws of sums are stated here because both sides need them: a sum over 4096 features is the sum over 32 tiles of the
  sums over each tile's 128 features (`sum_tiles`), and a sum over a range of tiles is the sum over `Fin` (`sum_range_tiles`).
-/
import Idealize.ShloMosaic.PureOps.Ideal
import Idealize.ShloMosaic.PureOps.Ideal.Laws
import Idealize.ShloMosaic.Lib.ValueIdx

noncomputable section

namespace Cert.VNorm

open Idealize.ShloMosaic

/-- The divisor of both means: the word of `4096.0`. -/
def nFeat : EReal := Ideal.ofBits .f32 0x45800000#32
/-- The variance's guard: the word of `f32 1e-5`. -/
def eps : EReal := Ideal.ofBits .f32 0x3727C5AC#32

/-- An affine layer at row `R`, output feature `n`. -/
def dense (X : Fin 8192 → Fin 4096 → EReal) (W : Fin 4096 → Fin 4096 → EReal) (b : Fin 4096 → EReal)
    (R : Fin 8192) (n : Fin 4096) : EReal :=
  (∑ k : Fin 4096, X R k * W n k) + b n

/-- The mean of a row. -/
def rowMean (y : Fin 4096 → EReal) : EReal := Ideal.div (∑ k : Fin 4096, y k) nFeat
/-- The (biased) variance of a row. -/
def rowVar (y : Fin 4096 → EReal) : EReal :=
  Ideal.div (∑ k : Fin 4096, (y k - rowMean y) * (y k - rowMean y)) nFeat
/-- Layer normalisation of one row, scaled and shifted. -/
def lnRow (y γ β : Fin 4096 → EReal) (n : Fin 4096) : EReal :=
  (y n - rowMean y) * Ideal.rsqrt (rowVar y + eps) * γ n + β n

/-- Row `c` of the value third of the fused projection: row `8192 + c` of its 12288 rows. -/
def vthird (c : Fin 4096) : Fin 12288 := ⟨8192 + c.val, by have := c.isLt; omega⟩

/-- The layer: value projection, output projection, normalisation. -/
def attnNorm (X : Fin 8192 → Fin 4096 → EReal) (Wqkv : Fin 12288 → Fin 4096 → EReal) (bqkv : Fin 12288 → EReal)
    (Wp : Fin 4096 → Fin 4096 → EReal) (bp γ β : Fin 4096 → EReal) (R : Fin 8192) (n : Fin 4096) : EReal :=
  lnRow (dense (dense X (fun c k => Wqkv (vthird c) k) (fun c => bqkv (vthird c))) Wp bp R) γ β n

/-- Feature `j` of tile `a`: feature `128 a + j`. -/
def tileFeat (a : Fin 32) (j : Fin 128) : Fin 4096 := ⟨128 * a.val + j.val, by have := a.isLt; have := j.isLt; omega⟩

/-- A sum over the 4096 features is the sum over the 32 tiles of each tile's 128 features. -/
theorem sum_tiles (f : Fin 4096 → EReal) : (∑ a : Fin 32, ∑ j : Fin 128, f (tileFeat a j)) = ∑ k : Fin 4096, f k := by
  rw [← Finset.sum_product', Finset.univ_product_univ]
  refine Fintype.sum_equiv (finProdFinEquiv (m := 32) (n := 128)) _ _ (fun p => ?_)
  obtain ⟨a, j⟩ := p
  refine congrArg f (Fin.ext ?_)
  show 128 * a.val + j.val = j.val + 128 * a.val
  omega

/-- The tiles summed in point order are the tiles summed over `Fin 32`. -/
theorem sum_range_tiles (g : ℕ → EReal) : (∑ a ∈ Finset.range 32, g a) = ∑ a : Fin 32, g a.val :=
  (Fin.sum_univ_eq_sum_range g 32).symm

/-- An entry is finite: a real number. -/
def IsReal (x : EReal) : Prop := x ≠ ⊤ ∧ x ≠ ⊥

theorem IsReal.coe (r : ℝ) : IsReal (r : EReal) := ⟨EReal.coe_ne_top r, EReal.coe_ne_bot r⟩

theorem IsReal.exists_coe {x : EReal} (h : IsReal x) : ∃ r : ℝ, x = (r : EReal) :=
  ⟨x.toReal, (EReal.coe_toReal h.1 h.2).symm⟩

theorem IsReal.add {x y : EReal} (hx : IsReal x) (hy : IsReal y) : IsReal (x + y) := by
  obtain ⟨a, rfl⟩ := hx.exists_coe; obtain ⟨b, rfl⟩ := hy.exists_coe
  rw [← EReal.coe_add]; exact IsReal.coe _

theorem IsReal.mul {x y : EReal} (hx : IsReal x) (hy : IsReal y) : IsReal (x * y) := by
  obtain ⟨a, rfl⟩ := hx.exists_coe; obtain ⟨b, rfl⟩ := hy.exists_coe
  rw [← EReal.coe_mul]; exact IsReal.coe _

theorem IsReal.zero : IsReal (0 : EReal) := by rw [← EReal.coe_zero]; exact IsReal.coe _

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

end Cert.VNorm

end
-- ==== Proof.VRegion.lean ====
/-
  The first region's value: what its output array holds after the last write-back, as a function of the arrays the
  region finds (any entry contents `V`), read at the ideal values.  The output block of row tile `a` stays in place over the
  32 feature tiles and accumulates one tile's products per grid point, the bias joining at the last tile; written back
  once per row tile, the blocks cover the array.  So the array ends at the affine layer of its operands.
-/
import proofs.«166793_j8761733284269_1_alg».proof.Proof.LayerSpec
import proofs.«166793_j8761733284269_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384
noncomputable section

namespace Cert.KernelIdeal.VProj

open Idealize.ShloMosaic Idealize.ShloMosaic.TcCoe Idealize.SL.Sem
open Idealize.ShloMosaic.Pipeline (Dat)
open Idealize.ShloMosaic.ValueIdx
open Cert.KernelIdeal Cert.KernelIdeal.Gen Cert.VNorm

variable (V : (c : Dev nD) → (b : Ref sig .tc) → Buf (Elt Ideal) ((c : Thread nD τ).loc b))

theorem hz : (![0, 0] : Fin 2 → Nat) = fun _ => 0 := funext fun a => by fin_cases a <;> rfl

section Pieces
variable {F : FTy → Type} [FloatOps F]

/-- A point in the middle of a row tile's sweep leaves the block it found plus this feature tile's products. -/
theorem out_B (c : Dev nD) (i : grid0.Coords) (a2 : Memref sig .tc .vmem S512x128 .f32) (h2 : a2.IsWhole)
    (a3 : Memref sig .tc .vmem S4096x128 .f32) (h3 : a3.IsWhole) (a4 : Memref sig .tc .vmem S1x4096 .f32) (h4 : a4.IsWhole)
    (a5 : Memref sig .tc .vmem S512x4096 .f32) (h5 : a5.IsWhole) (hc0 : ¬cond0_0 i) (hc1 : ¬cond0_1 i)
    (x0 : Vec F S512x128 .f32) (x1 : Vec F S4096x128 .f32) (x2 : Vec F S1x4096 .f32) (xo : Vec F S512x4096 .f32) :
    out0_B_3 c i a2 h2 a3 h3 a4 h4 a5 h5 hc0 hc1 x0 x1 x2 xo = k0_pay2 x0 x1 xo := by
  unfold out0_B_3
  rw [View.read_writes_eq_canon _ _ _ (cover0_B_3 c i a2 h2 a3 h3 a4 h4 a5 h5 hc0 hc1 x0 x1 x2 xo)]
  unfold kernelRun0_B
  dsimp only
  sl_unfold_words
  rw [View.canon_unit_zero hz]
  simp only [View.readAt_eq_ld, h2.read_unread, h3.read_unread, h5.read_unread, View.ld_unit_zero (S := S512x128) hz,
    View.ld_unit_zero (S := S4096x128) hz, View.ld_unit_zero (S := S512x4096) hz]

/-- The first point of a row tile's sweep zeroes the block, reads it back, and leaves this feature tile's products over
    the zero. -/
theorem out_A (c : Dev nD) (i : grid0.Coords) (a2 : Memref sig .tc .vmem S512x128 .f32) (h2 : a2.IsWhole)
    (a3 : Memref sig .tc .vmem S4096x128 .f32) (h3 : a3.IsWhole) (a4 : Memref sig .tc .vmem S1x4096 .f32) (h4 : a4.IsWhole)
    (a5 : Memref sig .tc .vmem S512x4096 .f32) (h5 : a5.IsWhole) (hc0 : cond0_0 i) (hc1 : ¬cond0_1 i)
    (x0 : Vec F S512x128 .f32) (x1 : Vec F S4096x128 .f32) (x2 : Vec F S1x4096 .f32) :
    out0_A_3 c i a2 h2 a3 h3 a4 h4 a5 h5 hc0 hc1 x0 x1 x2 = k0_pay2 x0 x1 (k0_pay1 (F := F)) := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S512x4096) hz, View.readCov_unit_zero (S := S512x4096) _ hz]
  simp only [View.readAt_eq_ld, h2.read_unread, h3.read_unread, View.ld_unit_zero (S := S512x128) hz,
    View.ld_unit_zero (S := S4096x128) hz]

/-- The last point of a row tile's sweep adds this feature tile's products, reads the block back, and adds the bias row
    to every row. -/
theorem out_C (c : Dev nD) (i : grid0.Coords) (a2 : Memref sig .tc .vmem S512x128 .f32) (h2 : a2.IsWhole)
    (a3 : Memref sig .tc .vmem S4096x128 .f32) (h3 : a3.IsWhole) (a4 : Memref sig .tc .vmem S1x4096 .f32) (h4 : a4.IsWhole)
    (a5 : Memref sig .tc .vmem S512x4096 .f32) (h5 : a5.IsWhole) (hc0 : ¬cond0_0 i) (hc1 : cond0_1 i)
    (x0 : Vec F S512x128 .f32) (x1 : Vec F S4096x128 .f32) (x2 : Vec F S1x4096 .f32) (xo : Vec F S512x4096 .f32) :
    out0_C_3 c i a2 h2 a3 h3 a4 h4 a5 h5 hc0 hc1 x0 x1 x2 xo = k0_pay3 (k0_pay2 x0 x1 xo) x2 := by
  unfold out0_C_3
  rw [View.read_writes_eq_canon _ _ _ (cover0_C_3 c i a2 h2 a3 h3 a4 h4 a5 h5 hc0 hc1 x0 x1 x2 xo)]
  unfold kernelRun0_C
  dsimp only
  sl_unfold_words
  rw [View.canon_cons_unit_zero (S := S512x4096) hz, View.readCov_unit_zero (S := S512x4096) _ hz]
  simp only [View.readAt_eq_ld, h2.read_unread, h3.read_unread, h4.read_unread, h5.read_unread,
    View.ld_unit_zero (S := S512x128) hz, View.ld_unit_zero (S := S4096x128) hz, View.ld_unit_zero (S := S1x4096) hz,
    View.ld_unit_zero (S := S512x4096) hz]

end Pieces

/-! ## The stores' values at an index, at the ideal values -/

/-- The product's dimension numbers: both operands contract their second axis. -/
abbrev D : DotDims S512x128 S4096x128 S512x4096 := dot_S512x128_S4096x128_S512x4096_1_1_0_0_n_n

theorem lhs_0 (j : S512x4096.Idx) (k : D.contr.Idx) : (D.lhsIdx j k 0).val = (j 0).val := rfl
theorem lhs_1 (j : S512x4096.Idx) (k : D.contr.Idx) : (D.lhsIdx j k 1).val = (k ⟨0, by decide⟩).val := rfl
theorem rhs_0 (j : S512x4096.Idx) (k : D.contr.Idx) : (D.rhsIdx j k 0).val = (j 1).val := rfl
theorem rhs_1 (j : S512x4096.Idx) (k : D.contr.Idx) : (D.rhsIdx j k 1).val = (k ⟨0, by decide⟩).val := rfl

/-- The product into the zero block at (r, q): row r of the left operand against row q of the right one. -/
theorem matmul_at (x : FVec Ideal S512x128 .bf16) (w : FVec Ideal S4096x128 .bf16) (r : Fin 512) (q : Fin 4096) :
    FloatOps.matmul D none x w (constant (F := Ideal) S512x4096 .f32 0x00000000#32) (ix2 r q)
      = ∑ j : Fin 128, x (ix2 r j) * w (ix2 q j) := by
  refine (Ideal.matmul_constant_zero_apply D none x w (ix2 r q)).trans ?_
  rw [← Equiv.sum_comp (contrEquiv1 D 128 rfl rfl).symm]
  refine Finset.sum_congr rfl fun j _ => ?_
  have hl : D.lhsIdx (ix2 r q) ((contrEquiv1 D 128 rfl rfl).symm j) = ix2 r j := by
    funext a; apply Fin.ext
    match a with
    | ⟨0, _⟩ => exact lhs_0 _ _
    | ⟨1, _⟩ => exact (lhs_1 _ _).trans (contrEquiv1_symm_val D 128 rfl rfl j)
  have hr : D.rhsIdx (ix2 r q) ((contrEquiv1 D 128 rfl rfl).symm j) = ix2 q j := by
    funext a; apply Fin.ext
    match a with
    | ⟨0, _⟩ => exact rhs_0 _ _
    | ⟨1, _⟩ => exact (rhs_1 _ _).trans (contrEquiv1_symm_val D 128 rfl rfl j)
  rw [hl, hr]

/-- The reset's value: zero. -/
theorem pay1_at (r : Fin 512) (q : Fin 4096) : (k0_pay1 (F := Ideal) : S512x4096.Idx → EReal) (ix2 r q) = 0 :=
  Ideal.ofBits_zero_f32

/-- The accumulating store's value at (r, q): what the block held plus this feature tile's 128 products. -/
theorem pay2_at (x : Vec Ideal S512x128 .f32) (w : Vec Ideal S4096x128 .f32) (p : Vec Ideal S512x4096 .f32)
    (r : Fin 512) (q : Fin 4096) :
    (k0_pay2 x w p : S512x4096.Idx → EReal) (ix2 r q)
      = (p : S512x4096.Idx → EReal) (ix2 r q)
        + ∑ j : Fin 128, (x : S512x128.Idx → EReal) (ix2 r j) * (w : S4096x128.Idx → EReal) (ix2 q j) := by
  unfold k0_pay2
  refine (addf_apply _ _ _).trans ?_
  refine congrArg₂ (· + ·) (congrFun (shapeCast_self p _) _) ?_
  refine (matmul_at _ _ r q).trans ?_
  refine Finset.sum_congr rfl fun j _ => ?_
  exact congrArg (fun z => (x : S512x128.Idx → EReal) (ix2 r j) * z) (congrFun (shapeCast_self w _) (ix2 q j))

/-- The closing store's value at (r, q): what the block held plus the bias at q. -/
theorem pay3_at (p : Vec Ideal S512x4096 .f32) (b : Vec Ideal S1x4096 .f32) (r : Fin 512) (q : Fin 4096) :
    (k0_pay3 p b : S512x4096.Idx → EReal) (ix2 r q)
      = (p : S512x4096.Idx → EReal) (ix2 r q) + (b : S1x4096.Idx → EReal) (ix2 (0 : Fin 1) q) := by
  unfold k0_pay3
  refine (addf_apply _ _ _).trans ?_
  refine congrArg₂ (· + ·) (congrFun (shapeCast_self p _) _) ?_
  refine (broadcastTo_1b_ab_apply _ _ r q).trans ?_
  exact congrFun (shapeCast_self b _) _

/-! ## The blocks the windows hand the body, as entries of the arrays -/

/-- The left operand: the array the first window reads. -/
abbrev X (c : Dev nD) : Fin 8192 → Fin 4096 → EReal := fun R k => (V c main_arg0 : S8192x4096.Idx → EReal) (ix2 R k)
/-- The right operand: the array the second window reads. -/
abbrev W (c : Dev nD) : Fin 4096 → Fin 4096 → EReal := fun n k => (V c main_v0 : S4096x4096.Idx → EReal) (ix2 n k)
/-- The bias: the one row of the array the third window reads. -/
abbrev bias (c : Dev nD) : Fin 4096 → EReal := fun n => (V c main_v2 : S1x4096.Idx → EReal) (ix2 (0 : Fin 1) n)

/-- The three input blocks at a point and the output block after a point, at their literal types. -/
abbrev xblk (c : Dev nD) (t : Fin cfg0.N) : S512x128.Idx → EReal := iblk0 V c 0 t
abbrev wblk (c : Dev nD) (t : Fin cfg0.N) : S4096x128.Idx → EReal := iblk0 V c 1 t
abbrev bblk (c : Dev nD) (t : Fin cfg0.N) : S1x4096.Idx → EReal := iblk0 V c 2 t
abbrev acc (c : Dev nD) (n : ℕ) (h : n < cfg0.N) : S512x4096.Idx → EReal := outsAt0 V c n h

/-- Point t = 32 a + kt: the windows' block indices are (a, kt), (0, kt), (0, 0) and (a, 0). -/
theorem idx_facts : ∀ t : Fin cfg0.N,
    win0_0.index t (0 : Fin 2) = t.val / 32 ∧ win0_0.index t (1 : Fin 2) = t.val % 32
    ∧ win0_1.index t (0 : Fin 2) = 0 ∧ win0_1.index t (1 : Fin 2) = t.val % 32
    ∧ win0_2.index t (0 : Fin 2) = 0 ∧ win0_2.index t (1 : Fin 2) = 0
    ∧ win0_3.index t (0 : Fin 2) = t.val / 32 ∧ win0_3.index t (1 : Fin 2) = 0 :=
  (by decide +kernel : ∀ t : Fin grid0.N, _)

/-- The left block at point t holds rows 512 (t / 32) …, features 128 (t % 32) … of the left operand. -/
theorem xblk_at (c : Dev nD) (t : Fin cfg0.N) (r : Fin 512) (j : Fin 128) (R : Fin 8192) (k : Fin 4096)
    (hR : R.val = 512 * (t.val / 32) + r.val) (hk : k.val = 128 * (t.val % 32) + j.val) :
    xblk V c t (ix2 r j) = X V c R k := by
  obtain ⟨e0, e1, -⟩ := idx_facts t
  show V c main_arg0 (((cfg0.win 0).blk t).view.emb (ix2 r j)) = V c main_arg0 (ix2 R k)
  refine congrArg (V c main_arg0) (funext fun a => Fin.ext ?_)
  match a with
  | ⟨0, _⟩ => show win0_0.index t (0 : Fin 2) * 512 + 1 * r.val = R.val; omega
  | ⟨1, _⟩ => show win0_0.index t (1 : Fin 2) * 128 + 1 * j.val = k.val; omega

/-- The right block at point t holds every row, features 128 (t % 32) … of the right operand. -/
theorem wblk_at (c : Dev nD) (t : Fin cfg0.N) (q : Fin 4096) (j : Fin 128) (k : Fin 4096)
    (hk : k.val = 128 * (t.val % 32) + j.val) :
    wblk V c t (ix2 q j) = W V c q k := by
  obtain ⟨-, -, e2, e3, -⟩ := idx_facts t
  show V c main_v0 (((cfg0.win 1).blk t).view.emb (ix2 q j)) = V c main_v0 (ix2 q k)
  refine congrArg (V c main_v0) (funext fun a => Fin.ext ?_)
  match a with
  | ⟨0, _⟩ => show win0_1.index t (0 : Fin 2) * 4096 + 1 * q.val = q.val; omega
  | ⟨1, _⟩ => show win0_1.index t (1 : Fin 2) * 128 + 1 * j.val = k.val; omega

/-- The bias block is the bias row at every point. -/
theorem bblk_at (c : Dev nD) (t : Fin cfg0.N) (q : Fin 4096) :
    bblk V c t (ix2 (0 : Fin 1) q) = bias V c q := by
  obtain ⟨-, -, -, -, e4, e5, -⟩ := idx_facts t
  show V c main_v2 (((cfg0.win 2).blk t).view.emb (ix2 (0 : Fin 1) q)) = V c main_v2 (ix2 (0 : Fin 1) q)
  refine congrArg (V c main_v2) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 4096 + 1 * q.val = q.val; omega

/-! ## The output block after each point -/

/-- After the first point of a sweep: this feature tile's products over the zero. -/
theorem step_A (c : Dev nD) (n : ℕ) (h : n < cfg0.N) (h0 : n % 32 = 0) (h1 : ¬n % 32 = 31) (r : Fin 512) (q : Fin 4096) :
    acc V c n h (ix2 r q) = 0 + ∑ j : Fin 128, xblk V c ⟨n, h⟩ (ix2 r j) * wblk V c ⟨n, h⟩ (ix2 q j) := by
  refine (congrFun (outsAt0_A V c ⟨n, h⟩ h0 h1) (ix2 r q)).trans ?_
  refine (congrFun (out_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) ((hcond0_0 ⟨n, h⟩).mpr h0) (fun h' => h1 ((hcond0_1 ⟨n, h⟩).mp h'))
    (iblk0 V c 0 ⟨n, h⟩) (iblk0 V c 1 ⟨n, h⟩) (iblk0 V c 2 ⟨n, h⟩)) (ix2 r q)).trans ?_
  refine (pay2_at (iblk0 V c 0 ⟨n, h⟩) (iblk0 V c 1 ⟨n, h⟩) (k0_pay1 (F := Ideal)) r q).trans ?_
  exact congrArg (fun z => z + ∑ j : Fin 128, xblk V c ⟨n, h⟩ (ix2 r j) * wblk V c ⟨n, h⟩ (ix2 q j)) (pay1_at r q)

/-- After a middle point of a sweep: what the point before left plus this feature tile's products. -/
theorem step_B (c : Dev nD) (n : ℕ) (h : n < cfg0.N) (h0 : ¬n % 32 = 0) (h1 : ¬n % 32 = 31) (r : Fin 512) (q : Fin 4096) :
    acc V c n h (ix2 r q) = acc V c (n - 1) (Nat.lt_of_le_of_lt (Nat.sub_le _ _) h) (ix2 r q)
      + ∑ j : Fin 128, xblk V c ⟨n, h⟩ (ix2 r j) * wblk V c ⟨n, h⟩ (ix2 q j) := by
  refine (congrFun (outsAt0_B V c ⟨n, h⟩ h0 h1) (ix2 r q)).trans ?_
  refine (congrFun (out_B (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (fun h' => h0 ((hcond0_0 ⟨n, h⟩).mp h')) (fun h' => h1 ((hcond0_1 ⟨n, h⟩).mp h'))
    (iblk0 V c 0 ⟨n, h⟩) (iblk0 V c 1 ⟨n, h⟩) (iblk0 V c 2 ⟨n, h⟩)
    (outsAt0 V c (n - 1) (Nat.lt_of_le_of_lt (Nat.sub_le _ _) h))) (ix2 r q)).trans ?_
  exact pay2_at (iblk0 V c 0 ⟨n, h⟩) (iblk0 V c 1 ⟨n, h⟩) (outsAt0 V c (n - 1) (Nat.lt_of_le_of_lt (Nat.sub_le _ _) h)) r q

/-- After the last point of a sweep: the same, and the bias. -/
theorem step_C (c : Dev nD) (n : ℕ) (h : n < cfg0.N) (h0 : ¬n % 32 = 0) (h1 : n % 32 = 31) (r : Fin 512) (q : Fin 4096) :
    acc V c n h (ix2 r q) = (acc V c (n - 1) (Nat.lt_of_le_of_lt (Nat.sub_le _ _) h) (ix2 r q)
      + ∑ j : Fin 128, xblk V c ⟨n, h⟩ (ix2 r j) * wblk V c ⟨n, h⟩ (ix2 q j)) + bblk V c ⟨n, h⟩ (ix2 (0 : Fin 1) q) := by
  refine (congrFun (outsAt0_C V c ⟨n, h⟩ h0 h1) (ix2 r q)).trans ?_
  refine (congrFun (out_C (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (fun h' => h0 ((hcond0_0 ⟨n, h⟩).mp h')) ((hcond0_1 ⟨n, h⟩).mpr h1)
    (iblk0 V c 0 ⟨n, h⟩) (iblk0 V c 1 ⟨n, h⟩) (iblk0 V c 2 ⟨n, h⟩)
    (outsAt0 V c (n - 1) (Nat.lt_of_le_of_lt (Nat.sub_le _ _) h))) (ix2 r q)).trans ?_
  refine (pay3_at (k0_pay2 (iblk0 V c 0 ⟨n, h⟩) (iblk0 V c 1 ⟨n, h⟩) (outsAt0 V c (n - 1) (Nat.lt_of_le_of_lt (Nat.sub_le _ _) h)))
    (iblk0 V c 2 ⟨n, h⟩) r q).trans ?_
  exact congrArg (fun z => z + bblk V c ⟨n, h⟩ (ix2 (0 : Fin 1) q))
    (pay2_at (iblk0 V c 0 ⟨n, h⟩) (iblk0 V c 1 ⟨n, h⟩) (outsAt0 V c (n - 1) (Nat.lt_of_le_of_lt (Nat.sub_le _ _) h)) r q)

/-- Feature tile kt's 128 products at row R, output feature q (nothing past the last tile). -/
def tileTerm (c : Dev nD) (R : Fin 8192) (q : Fin 4096) (kt : ℕ) : EReal :=
  if h : kt < 32 then ∑ j : Fin 128, X V c R (tileFeat ⟨kt, h⟩ j) * W V c q (tileFeat ⟨kt, h⟩ j) else 0

/-- The products a point adds are its feature tile's. -/
theorem blocks_sum (c : Dev nD) (n : ℕ) (h : n < cfg0.N) (r : Fin 512) (q : Fin 4096) (R : Fin 8192)
    (hR : R.val = 512 * (n / 32) + r.val) :
    (∑ j : Fin 128, xblk V c ⟨n, h⟩ (ix2 r j) * wblk V c ⟨n, h⟩ (ix2 q j)) = tileTerm V c R q (n % 32) := by
  unfold tileTerm
  rw [dif_pos (Nat.mod_lt n (by decide))]
  refine Finset.sum_congr rfl fun j _ => ?_
  rw [xblk_at V c ⟨n, h⟩ r j R (tileFeat ⟨n % 32, Nat.mod_lt n (by decide)⟩ j) hR rfl,
    wblk_at V c ⟨n, h⟩ q j (tileFeat ⟨n % 32, Nat.mod_lt n (by decide)⟩ j) rfl]

/-- THE ACCUMULATION: after point n = 32 a + kt the block holds, at (r, q), the products of feature tiles 0 … kt of
    row 512 a + r against output feature q, and the bias once the sweep is over. -/
theorem acc_at (c : Dev nD) : ∀ (n : ℕ) (h : n < cfg0.N) (r : Fin 512) (q : Fin 4096) (R : Fin 8192)
    (hR : R.val = 512 * (n / 32) + r.val),
    acc V c n h (ix2 r q) = (∑ kt ∈ Finset.range (n % 32 + 1), tileTerm V c R q kt)
      + (if n % 32 = 31 then bias V c q else 0) := by
  intro n
  induction n with
  | zero =>
    intro h r q R hR
    rw [step_A V c 0 h rfl (by decide) r q, blocks_sum V c 0 h r q R hR, if_neg (by decide), zero_add, add_zero]
    exact (Finset.sum_range_one _).symm
  | succ n ih =>
    intro h r q R hR
    have hN : n + 1 < 512 := lt_of_lt_of_eq h N_0
    by_cases h0 : (n + 1) % 32 = 0
    · have h1 : ¬(n + 1) % 32 = 31 := by omega
      rw [step_A V c (n + 1) h h0 h1 r q, blocks_sum V c (n + 1) h r q R hR, if_neg h1, zero_add, add_zero, h0]
      exact (Finset.sum_range_one _).symm
    · have e1 : (n + 1) % 32 = n % 32 + 1 := by omega
      have e2 : ¬n % 32 = 31 := by omega
      have hR' : R.val = 512 * (n / 32) + r.val := by omega
      by_cases h1 : (n + 1) % 32 = 31
      · rw [step_C V c (n + 1) h h0 h1 r q, blocks_sum V c (n + 1) h r q R hR, bblk_at V c ⟨n + 1, h⟩ q, if_pos h1]
        show (acc V c n _ (ix2 r q) + _) + _ = _
        rw [ih (Nat.lt_of_succ_lt h) r q R hR', if_neg e2, add_zero, e1, Finset.sum_range_succ (tileTerm V c R q) (n % 32 + 1)]
      · rw [step_B V c (n + 1) h h0 h1 r q, blocks_sum V c (n + 1) h r q R hR, if_neg h1, add_zero]
        show acc V c n _ (ix2 r q) + _ = _
        rw [ih (Nat.lt_of_succ_lt h) r q R hR', if_neg e2, add_zero, e1, Finset.sum_range_succ (tileTerm V c R q) (n % 32 + 1)]

/-! ## The array after the last write-back -/

/-- The affine layer of the three arrays, as contents of the output array. -/
abbrev layer (c : Dev nD) : S8192x4096.Idx → EReal :=
  fun i => dense (X V c) (W V c) (bias V c) ⟨(i 0).val, idx2_lt0 i⟩ ⟨(i 1).val, idx2_lt1 i⟩

/-- All 32 feature tiles' products at (R, q) are the whole contraction. -/
theorem tiles_sum (c : Dev nD) (R : Fin 8192) (q : Fin 4096) :
    (∑ kt ∈ Finset.range 32, tileTerm V c R q kt) = ∑ k : Fin 4096, X V c R k * W V c q k := by
  rw [sum_range_tiles, ← sum_tiles (fun k => X V c R k * W V c q k)]
  refine Finset.sum_congr rfl fun a _ => ?_
  unfold tileTerm
  rw [dif_pos a.isLt]

/-- A point that closes a sweep writes back its block of the layer. -/
theorem flushed_eq (c : Dev nD) (t : Fin cfg0.N) (hf : (cfg0.win 3).flush t = true) :
    (dat0 (F := Ideal) V c).flushed 3 t = ((cfg0.win 3).blk t).view.read (Elt Ideal) (layer V c) := by
  have h31 : t.val % 32 = 31 := (flush0_3 t).mp hf
  have hN : t.val < 512 := lt_of_lt_of_eq t.isLt N_0
  obtain ⟨-, -, -, -, -, -, e6, e7⟩ := idx_facts t
  show (cfg0.win 3).cut (grid0.coords t) ((dat0 (F := Ideal) V c).after 3 t) = _
  rw [after0_3]
  funext y
  obtain ⟨r, q, rfl⟩ : ∃ (r : Fin 512) (q : Fin 4096), y = ix2 r q := ⟨y 0, y 1, eq_ix2 y⟩
  show acc V c t.val t.isLt (ix2 r q) = layer V c (((cfg0.win 3).blk t).view.emb (ix2 r q))
  have hr : r.val < 512 := r.isLt
  rw [acc_at V c t.val t.isLt r q ⟨512 * (t.val / 32) + r.val, by omega⟩ rfl, if_pos h31, h31, tiles_sum]
  have hemb : ((cfg0.win 3).blk t).view.emb (ix2 r q) = ix2 (⟨512 * (t.val / 32) + r.val, by omega⟩ : Fin 8192) q := by
    funext a; apply Fin.ext
    match a with
    | ⟨0, _⟩ => show win0_3.index t (0 : Fin 2) * 512 + 1 * r.val = 512 * (t.val / 32) + r.val; omega
    | ⟨1, _⟩ => show win0_3.index t (1 : Fin 2) * 4096 + 1 * q.val = q.val; omega
  rw [hemb]
  rfl

/-- An index of the array is in point t's block iff each coordinate is in the block's range on its axis. -/
theorem mem_blk (t : Fin cfg0.N) (i : S8192x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v6).slice (win0_3.rect t)).set ↔ _
  rw [View.set_slice_whole, Rect.mem_set_unit]
  exact Iff.rfl

/-- Row R is written back by the point that closes the sweep of row tile R / 512. -/
theorem covered (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hlt : 32 * ((i 0).val / 512) + 31 < cfg0.N := by rw [show cfg0.N = 512 from N_0]; omega
  refine ⟨⟨32 * ((i 0).val / 512) + 31, hlt⟩, (flush0_3 _).mpr (by show (32 * ((i 0).val / 512) + 31) % 32 = 31; omega), ?_⟩
  obtain ⟨-, -, -, -, -, -, e6, e7⟩ := idx_facts ⟨32 * ((i 0).val / 512) + 31, hlt⟩
  have e6' : win0_3.index ⟨32 * ((i 0).val / 512) + 31, hlt⟩ (0 : Fin 2) = (32 * ((i 0).val / 512) + 31) / 32 := e6
  rw [mem_blk]
  intro a
  match a with
  | ⟨0, _⟩ =>
    show win0_3.index ⟨32 * ((i 0).val / 512) + 31, hlt⟩ (0 : Fin 2) * 512 ≤ (i 0).val ∧ (i 0).val < win0_3.index ⟨32 * ((i 0).val / 512) + 31, hlt⟩ (0 : Fin 2) * 512 + 512
    omega
  | ⟨1, _⟩ =>
    show win0_3.index ⟨32 * ((i 0).val / 512) + 31, hlt⟩ (1 : Fin 2) * 4096 ≤ (i 1).val ∧ (i 1).val < win0_3.index ⟨32 * ((i 0).val / 512) + 31, hlt⟩ (1 : Fin 2) * 4096 + 4096
    omega

/-- After the region, its output array is `X · Wᵀ + b` of the three arrays its input windows read. -/
theorem final (c : Dev nD) (R : Fin 8192) (n : Fin 4096) :
    ((dat0 (F := Ideal) V c).arrAt 3 cfg0.N : S8192x4096.Idx → EReal) (ValueIdx.ix2 R n)
      = dense (fun R k => (V c main_arg0 : S8192x4096.Idx → EReal) (ValueIdx.ix2 R k))
          (fun n k => (V c main_v0 : S4096x4096.Idx → EReal) (ValueIdx.ix2 n k))
          (fun n => (V c main_v2 : S1x4096.Idx → EReal) (ValueIdx.ix2 (0 : Fin 1) n)) R n :=
  congrFun ((dat0 (F := Ideal) V c).arrAt_eq_of_cover 3 (layer V c) (flushed_eq V c) covered) (ix2 R n)

end Cert.KernelIdeal.VProj

end
-- ==== Proof.YRegion.lean ====
/-
  The second region's value: what its output array holds after the last write-back, as a function of the arrays the
  region finds (any entry contents `V`), read at the ideal values.  As in the first region the output block of a row tile
  accumulates one feature tile's products per grid point; at the last tile the bias is added and each of the block's
  512 rows is normalised over its 4096 features, scaled and shifted.  So the array ends at the row normalisation of the
  affine layer of its operands.
-/
import proofs.«166793_j8761733284269_1_alg».proof.Proof.LayerSpec
import proofs.«166793_j8761733284269_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384
noncomputable section

namespace Cert.KernelIdeal.YNorm

open Idealize.ShloMosaic Idealize.ShloMosaic.TcCoe Idealize.SL.Sem
open Idealize.ShloMosaic.Pipeline (Dat)
open Cert.KernelIdeal Cert.KernelIdeal.Gen Cert.VNorm

open Idealize.ShloMosaic.ValueIdx

/-! ## What each case leaves in the output block -/

section Pieces
variable {F : FTy → Type} [FloatOps F]

theorem hz : (![0, 0] : Fin 2 → Nat) = fun _ => 0 := funext fun a => by fin_cases a <;> rfl

/-- A point that neither resets nor finishes leaves the block it found plus this tile's products. -/
theorem out_B (c : Dev nD) (i : grid1.Coords) (a2 : Memref sig .tc .vmem S512x128 .f32) (h2 : a2.IsWhole)
    (a3 : Memref sig .tc .vmem S4096x128 .f32) (h3 : a3.IsWhole) (a4 : Memref sig .tc .vmem S1x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (hc0 : ¬cond1_0 i) (hc1 : ¬cond1_1 i)
    (x0 : Vec F S512x128 .f32) (x1 : Vec F S4096x128 .f32) (x2 x3 x4 : Vec F S1x4096 .f32) (xo : Vec F S512x4096 .f32) :
    out1_B_5 c i a2 h2 a3 h3 a4 h4 a5 h5 a6 h6 a7 h7 hc0 hc1 x0 x1 x2 x3 x4 xo = k1_pay2 x0 x1 xo := by
  unfold out1_B_5
  rw [View.read_writes_eq_canon _ _ _ (cover1_B_5 c i a2 h2 a3 h3 a4 h4 a5 h5 a6 h6 a7 h7 hc0 hc1 x0 x1 x2 x3 x4 xo)]
  unfold kernelRun1_B
  dsimp only
  sl_unfold_words
  rw [View.canon_unit_zero (S := S512x4096) hz]
  simp only [View.readAt_eq_ld, h2.read_unread, h3.read_unread, h7.read_unread, View.ld_unit_zero (S := S512x128) hz,
    View.ld_unit_zero (S := S4096x128) hz, View.ld_unit_zero (S := S512x4096) hz]

/-- A resetting point leaves the zero block plus this tile's products. -/
theorem out_A (c : Dev nD) (i : grid1.Coords) (a2 : Memref sig .tc .vmem S512x128 .f32) (h2 : a2.IsWhole)
    (a3 : Memref sig .tc .vmem S4096x128 .f32) (h3 : a3.IsWhole) (a4 : Memref sig .tc .vmem S1x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (hc0 : cond1_0 i) (hc1 : ¬cond1_1 i)
    (x0 : Vec F S512x128 .f32) (x1 : Vec F S4096x128 .f32) (x2 x3 x4 : Vec F S1x4096 .f32) :
    out1_A_5 c i a2 h2 a3 h3 a4 h4 a5 h5 a6 h6 a7 h7 hc0 hc1 x0 x1 x2 x3 x4 = k1_pay2 x0 x1 k1_pay1 := by
  unfold out1_A_5
  rw [View.read_writes_eq_canon _ _ _ (cover1_A_5 c i a2 h2 a3 h3 a4 h4 a5 h5 a6 h6 a7 h7 hc0 hc1 x0 x1 x2 x3 x4)]
  unfold kernelRun1_A
  dsimp only
  sl_unfold_words
  rw [View.canon_cons_unit_zero (S := S512x4096) hz]
  simp only [View.readAt_eq_ld, h2.read_unread, h3.read_unread, View.ld_unit_zero (S := S512x128) hz,
    View.ld_unit_zero (S := S4096x128) hz, View.readCov_unit_zero (S := S512x4096) _ hz]

/-- A finishing point adds this tile's products, then the bias, and leaves each row normalised, scaled and shifted. -/
theorem out_C (c : Dev nD) (i : grid1.Coords) (a2 : Memref sig .tc .vmem S512x128 .f32) (h2 : a2.IsWhole)
    (a3 : Memref sig .tc .vmem S4096x128 .f32) (h3 : a3.IsWhole) (a4 : Memref sig .tc .vmem S1x4096 .f32) (h4 : a4.IsWhole)
    (a5 : Memref sig .tc .vmem S1x4096 .f32) (h5 : a5.IsWhole) (a6 : Memref sig .tc .vmem S1x4096 .f32) (h6 : a6.IsWhole)
    (a7 : Memref sig .tc .vmem S512x4096 .f32) (h7 : a7.IsWhole) (hc0 : ¬cond1_0 i) (hc1 : cond1_1 i)
    (x0 : Vec F S512x128 .f32) (x1 : Vec F S4096x128 .f32) (x2 x3 x4 : Vec F S1x4096 .f32) (xo : Vec F S512x4096 .f32) :
    out1_C_5 c i a2 h2 a3 h3 a4 h4 a5 h5 a6 h6 a7 h7 hc0 hc1 x0 x1 x2 x3 x4 xo = k1_pay3 (k1_pay2 x0 x1 xo) x2 x3 x4 := by
  unfold out1_C_5
  rw [View.read_writes_eq_canon _ _ _ (cover1_C_5 c i a2 h2 a3 h3 a4 h4 a5 h5 a6 h6 a7 h7 hc0 hc1 x0 x1 x2 x3 x4 xo)]
  unfold kernelRun1_C
  dsimp only
  sl_unfold_words
  rw [View.canon_cons_unit_zero (S := S512x4096) hz]
  simp only [View.readAt_eq_ld, h2.read_unread, h3.read_unread, h4.read_unread, h5.read_unread, h6.read_unread, h7.read_unread,
    View.ld_unit_zero (S := S512x128) hz, View.ld_unit_zero (S := S4096x128) hz, View.ld_unit_zero (S := S512x4096) hz,
    View.ld_unit_zero (S := S1x4096) hz, View.readCov_unit_zero (S := S512x4096) _ hz]

end Pieces

/-! ## The block's values at an index -/

section AtIndex

/-- The zero block at an index. -/
theorem pay1_apply (r : Fin 512) (q : Fin 4096) : (k1_pay1 (F := Ideal)) (ix2 r q) = 0 :=
  Ideal.ofBits_zero_f32

/-- The product's left operand index at output `(r, q)`, contraction position `k`: row `r`, -/
theorem lhs_0 (j : S512x4096.Idx) (k : dot_S512x128_S4096x128_S512x4096_1_1_0_0_n_n.contr.Idx) :
    (dot_S512x128_S4096x128_S512x4096_1_1_0_0_n_n.lhsIdx j k 0 : ℕ) = j 0 := by
  simp [DotDims.lhsIdx, dot_S512x128_S4096x128_S512x4096_1_1_0_0_n_n]; rfl
/-- column `k`; -/
theorem lhs_1 (j : S512x4096.Idx) (k : dot_S512x128_S4096x128_S512x4096_1_1_0_0_n_n.contr.Idx) :
    (dot_S512x128_S4096x128_S512x4096_1_1_0_0_n_n.lhsIdx j k 1 : ℕ) = k ⟨0, by decide⟩ :=
  dot_S512x128_S4096x128_S512x4096_1_1_0_0_n_n.lhsIdx_val_of_single (cl := 1) rfl j k
/-- the right operand's: row `q`, -/
theorem rhs_0 (j : S512x4096.Idx) (k : dot_S512x128_S4096x128_S512x4096_1_1_0_0_n_n.contr.Idx) :
    (dot_S512x128_S4096x128_S512x4096_1_1_0_0_n_n.rhsIdx j k 0 : ℕ) = j 1 := by
  simp [DotDims.rhsIdx, dot_S512x128_S4096x128_S512x4096_1_1_0_0_n_n]; rfl
/-- column `k`. -/
theorem rhs_1 (j : S512x4096.Idx) (k : dot_S512x128_S4096x128_S512x4096_1_1_0_0_n_n.contr.Idx) :
    (dot_S512x128_S4096x128_S512x4096_1_1_0_0_n_n.rhsIdx j k 1 : ℕ) = k ⟨0, by decide⟩ :=
  dot_S512x128_S4096x128_S512x4096_1_1_0_0_n_n.rhsIdx_val_of_single (cr := 1) rfl j k

/-- The tile product into the zero accumulator, at `(r, q)`: the sum over the tile's 128 features of `y r · w q`. -/
theorem tileProduct_apply (y : FVec Ideal S512x128 .bf16) (w : FVec Ideal S4096x128 .bf16) (r : Fin 512) (q : Fin 4096) :
    matmul dot_S512x128_S4096x128_S512x4096_1_1_0_0_n_n none y w (constant (F := Ideal) S512x4096 .f32 0x00000000#32) (ix2 r q)
      = ∑ i : Fin 128, y (ix2 r i) * w (ix2 q i) := by
  refine (Ideal.matmul_constant_zero_apply dot_S512x128_S4096x128_S512x4096_1_1_0_0_n_n none y w (ix2 r q)).trans ?_
  rw [← Equiv.sum_comp (contrEquiv1 dot_S512x128_S4096x128_S512x4096_1_1_0_0_n_n 128 rfl rfl).symm]
  refine Finset.sum_congr rfl fun i _ => ?_
  have hl : dot_S512x128_S4096x128_S512x4096_1_1_0_0_n_n.lhsIdx (ix2 r q)
      ((contrEquiv1 dot_S512x128_S4096x128_S512x4096_1_1_0_0_n_n 128 rfl rfl).symm i) = ix2 r i := by
    funext a; apply Fin.ext
    match a with
    | ⟨0, _⟩ => exact lhs_0 _ _
    | ⟨1, _⟩ => exact (lhs_1 _ _).trans (contrEquiv1_symm_val _ _ _ _ i)
  have hr : dot_S512x128_S4096x128_S512x4096_1_1_0_0_n_n.rhsIdx (ix2 r q)
      ((contrEquiv1 dot_S512x128_S4096x128_S512x4096_1_1_0_0_n_n 128 rfl rfl).symm i) = ix2 q i := by
    funext a; apply Fin.ext
    match a with
    | ⟨0, _⟩ => exact rhs_0 _ _
    | ⟨1, _⟩ => exact (rhs_1 _ _).trans (contrEquiv1_symm_val _ _ _ _ i)
  rw [hl, hr]

/-- The accumulation step at `(r, q)`: what the block held plus the tile's products. -/
theorem pay2_apply (x0 : Vec Ideal S512x128 .f32) (x1 : Vec Ideal S4096x128 .f32) (xo : Vec Ideal S512x4096 .f32)
    (r : Fin 512) (q : Fin 4096) :
    k1_pay2 (F := Ideal) x0 x1 xo (ix2 r q) = xo (ix2 r q) + ∑ i : Fin 128, x0 (ix2 r i) * x1 (ix2 q i) := by
  unfold k1_pay2
  refine (addf_apply _ _ (ix2 r q)).trans ?_
  refine congrArg₂ (· + ·) (congrFun (shapeCast_self xo _) (ix2 r q)) ?_
  refine (tileProduct_apply _ _ r q).trans ?_
  refine Finset.sum_congr rfl fun i _ => ?_
  refine congrArg₂ (· * ·) ?_ rfl
  exact congrFun (shapeCast_self x0 _) (ix2 r i)

/-- A lane sum at row `r`: the sum of the row's 4096 entries. -/
theorem laneSum_apply (v : FVec Ideal S512x4096 .f32) (r : Fin 512) :
    multiReduction (F := Ideal) .add [1] S512 v 0x00000000#32 reduces_S512x4096_S512 (.inl rfl) rfl (ix1 r)
      = ∑ k : Fin 4096, v (ix2 r k) := by
  refine (Ideal.multiReduction_add_single v 0x00000000#32 reduces_S512x4096_S512 (.inl rfl) rfl (ix1 r)).trans ?_
  refine Finset.sum_congr rfl fun k _ => congrArg v ?_
  funext a
  match a with
  | ⟨0, _⟩ => rfl
  | ⟨1, _⟩ => rfl

/-- A vector of row values viewed as a column reads its row. -/
theorem column_apply {α : Type} (x : S512.Idx → α) (r : Fin 512) (u : Fin 1) :
    shapeCast S512x1 x shapeCasts_S512_S512x1 (ix2 r u) = x (ix1 r) :=
  shapeCast_apply x _ _ _ (by
    rw [Shape.rowMajor_val_two, Shape.rowMajor_val_one]
    show r.val = r.val * 1 + u.val
    omega)

/-- A column spread over the block's 4096 lanes reads its row. -/
theorem spread_apply {α : Type} (x : S512x1.Idx → α) (r : Fin 512) (q : Fin 4096) :
    broadcastTo S512x4096 x broadcasts_S512x1_S512x4096 (ix2 r q) = x (ix2 r (0 : Fin 1)) := by
  refine broadcastTo_apply x _ (ix2 r q) (ix2 r (0 : Fin 1)) fun ax => ?_
  match ax with
  | ⟨0, _⟩ => rfl
  | ⟨1, _⟩ => rfl

/-- A one-row array spread over the block's 512 rows reads its lane. -/
theorem rowSpread_apply {α : Type} (x : S1x4096.Idx → α) (r : Fin 512) (q : Fin 4096) :
    broadcastTo S512x4096 x broadcasts_S1x4096_S512x4096 (ix2 r q) = x (ix2 (0 : Fin 1) q) :=
  broadcastTo_1b_ab_apply x _ r q

end AtIndex

section Normalise

/-- Each row's mean, as a column: the lane sum over the divisor. -/
abbrev meanCol (z : FVec Ideal S512x4096 .f32) : FVec Ideal S512x1 .f32 :=
  divf (shapeCast S512x1 (multiReduction (F := Ideal) .add [1] S512 z 0x00000000#32 reduces_S512x4096_S512 (.inl rfl) rfl)
      shapeCasts_S512_S512x1)
    (broadcast S512x1 (Scalar.ofBits (F := Ideal) .f32 0x45800000#32))

theorem meanCol_apply (z : FVec Ideal S512x4096 .f32) (r : Fin 512) :
    meanCol z (ix2 r (0 : Fin 1)) = rowMean (fun k => z (ix2 r k)) := by
  refine (divf_apply _ _ _).trans ?_
  unfold rowMean nFeat
  exact congrArg₂ Ideal.div ((column_apply _ r 0).trans (laneSum_apply z r)) rfl

/-- Each entry less its row's mean. -/
abbrev centered (z : FVec Ideal S512x4096 .f32) : FVec Ideal S512x4096 .f32 :=
  subf z (broadcastTo S512x4096 (meanCol z) broadcasts_S512x1_S512x4096)

theorem centered_apply (z : FVec Ideal S512x4096 .f32) (r : Fin 512) (q : Fin 4096) :
    centered z (ix2 r q) = z (ix2 r q) - rowMean (fun k => z (ix2 r k)) := by
  refine (subf_apply _ _ _).trans ?_
  exact congrArg (z (ix2 r q) - ·) ((spread_apply _ r q).trans (meanCol_apply z r))

/-- Each row's scale, as a column: the reciprocal root of the guarded variance. -/
abbrev scaleCol (z : FVec Ideal S512x4096 .f32) : FVec Ideal S512x1 .f32 :=
  rsqrt (addf (meanCol (mulf (centered z) (centered z))) (broadcast S512x1 (Scalar.ofBits (F := Ideal) .f32 0x3727C5AC#32)))

theorem scaleCol_apply (z : FVec Ideal S512x4096 .f32) (r : Fin 512) :
    scaleCol z (ix2 r (0 : Fin 1)) = Ideal.rsqrt (rowVar (fun k => z (ix2 r k)) + eps) := by
  show Ideal.rsqrt (meanCol (mulf (centered z) (centered z)) (ix2 r (0 : Fin 1)) + eps) = _
  refine congrArg (fun v => Ideal.rsqrt (v + eps)) ?_
  refine (meanCol_apply _ r).trans ?_
  unfold rowVar rowMean
  refine congrArg (Ideal.div · nFeat) (Finset.sum_congr rfl fun k _ => ?_)
  refine (mulf_apply _ _ _).trans ?_
  rw [centered_apply z r k]
  rfl

/-- The finishing step at `(r, q)`: the row of the block plus the bias, normalised, scaled and shifted. -/
theorem pay3_apply (xo : Vec Ideal S512x4096 .f32) (x2 x3 x4 : Vec Ideal S1x4096 .f32) (r : Fin 512) (q : Fin 4096) :
    k1_pay3 (F := Ideal) xo x2 x3 x4 (ix2 r q)
      = lnRow (fun k => xo (ix2 r k) + x2 (ix2 (0 : Fin 1) k)) (fun k => x3 (ix2 (0 : Fin 1) k))
          (fun k => x4 (ix2 (0 : Fin 1) k)) q := by
  have hz : ∀ k : Fin 4096, addf (F := Ideal) (φ := .f32) (shapeCast S512x4096 xo shapeCasts_S512x4096_S512x4096)
      (broadcastTo S512x4096 (shapeCast S1x4096 x2 shapeCasts_S1x4096_S1x4096) broadcasts_S1x4096_S512x4096) (ix2 r k)
        = xo (ix2 r k) + x2 (ix2 (0 : Fin 1) k) := fun k =>
    (addf_apply _ _ _).trans (congrArg₂ (· + ·) (congrFun (shapeCast_self xo _) _)
      ((rowSpread_apply _ r k).trans (congrFun (shapeCast_self x2 _) _)))
  have e : k1_pay3 (F := Ideal) xo x2 x3 x4
      = addf (mulf (mulf (centered (addf (F := Ideal) (φ := .f32) (shapeCast S512x4096 xo shapeCasts_S512x4096_S512x4096)
            (broadcastTo S512x4096 (shapeCast S1x4096 x2 shapeCasts_S1x4096_S1x4096) broadcasts_S1x4096_S512x4096)))
          (broadcastTo S512x4096 (scaleCol (addf (F := Ideal) (φ := .f32) (shapeCast S512x4096 xo shapeCasts_S512x4096_S512x4096)
            (broadcastTo S512x4096 (shapeCast S1x4096 x2 shapeCasts_S1x4096_S1x4096) broadcasts_S1x4096_S512x4096)))
            broadcasts_S512x1_S512x4096))
          (broadcastTo S512x4096 (shapeCast S1x4096 x3 shapeCasts_S1x4096_S1x4096) broadcasts_S1x4096_S512x4096))
        (broadcastTo S512x4096 (shapeCast S1x4096 x4 shapeCasts_S1x4096_S1x4096) broadcasts_S1x4096_S512x4096) := rfl
  rw [e]
  refine (addf_apply _ _ _).trans ?_
  refine congrArg₂ (· + ·) ?_ ((rowSpread_apply _ r q).trans (congrFun (shapeCast_self x4 _) _))
  refine (mulf_apply _ _ _).trans ?_
  refine congrArg₂ (· * ·) ?_ ((rowSpread_apply _ r q).trans (congrFun (shapeCast_self x3 _) _))
  refine (mulf_apply _ _ _).trans ?_
  have hrow : (fun k => addf (F := Ideal) (φ := .f32) (shapeCast S512x4096 xo shapeCasts_S512x4096_S512x4096)
      (broadcastTo S512x4096 (shapeCast S1x4096 x2 shapeCasts_S1x4096_S1x4096) broadcasts_S1x4096_S512x4096) (ix2 r k))
        = fun k => xo (ix2 r k) + x2 (ix2 (0 : Fin 1) k) := funext hz
  refine congrArg₂ (· * ·) ?_ ?_
  · rw [centered_apply _ r q, hrow, hz q]
  · rw [spread_apply _ r q, scaleCol_apply _ r, hrow]

end Normalise

variable (V : (c : Dev nD) → (b : Ref sig .tc) → Buf (Elt Ideal) ((c : Thread nD τ).loc b))

/-! ## The operands, and the blocks the windows cut from them -/

section Blocks

/-- The operands as the region finds them, entry by entry. -/
def Ym (c : Dev nD) (R : Fin 8192) (k : Fin 4096) : EReal := (V c main_v6 : S8192x4096.Idx → EReal) (ix2 R k)
def Wm (c : Dev nD) (n k : Fin 4096) : EReal := (V c main_arg3 : S4096x4096.Idx → EReal) (ix2 n k)
def bm (c : Dev nD) (n : Fin 4096) : EReal := (V c main_v3 : S1x4096.Idx → EReal) (ix2 (0 : Fin 1) n)
def gm (c : Dev nD) (n : Fin 4096) : EReal := (V c main_v4 : S1x4096.Idx → EReal) (ix2 (0 : Fin 1) n)
def sm (c : Dev nD) (n : Fin 4096) : EReal := (V c main_v5 : S1x4096.Idx → EReal) (ix2 (0 : Fin 1) n)

/-- Row `r` of row tile `a`: row `512 a + r`. -/
def tileRow (a : Fin 16) (r : Fin 512) : Fin 8192 := ⟨512 * a.val + r.val, by have := a.isLt; have := r.isLt; omega⟩

/-- A grid point's row tile and feature tile: point `t` is `32 a + s`. -/
def rowTileOf (t : Fin cfg1.N) : Fin 16 := ⟨t.val / 32, by have := lt_of_lt_of_eq t.isLt (show cfg1.N = 512 from N_1); omega⟩
def featTileOf (t : Fin cfg1.N) : Fin 32 := ⟨t.val % 32, Nat.mod_lt _ (by decide)⟩

/-- The windows' block indices at every point of the grid. -/
theorem idx_facts : ∀ t : Fin cfg1.N,
    win1_0.index t (0 : Fin 2) = t.val / 32 ∧ win1_0.index t (1 : Fin 2) = t.val % 32
    ∧ win1_1.index t (0 : Fin 2) = 0 ∧ win1_1.index t (1 : Fin 2) = t.val % 32
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val / 32 ∧ win1_5.index t (1 : Fin 2) = 0 :=
  (by decide +kernel : ∀ t : Fin grid1.N, _)

/-- The blocks at a point, at their literal shapes. -/
abbrev yblk (c : Dev nD) (t : Fin cfg1.N) : Vec Ideal S512x128 .f32 := iblk1 V c 0 t
abbrev wblk (c : Dev nD) (t : Fin cfg1.N) : Vec Ideal S4096x128 .f32 := iblk1 V c 1 t
abbrev bblk (c : Dev nD) (t : Fin cfg1.N) : Vec Ideal S1x4096 .f32 := iblk1 V c 2 t
abbrev gblk (c : Dev nD) (t : Fin cfg1.N) : Vec Ideal S1x4096 .f32 := iblk1 V c 3 t
abbrev sblk (c : Dev nD) (t : Fin cfg1.N) : Vec Ideal S1x4096 .f32 := iblk1 V c 4 t

/-- The left block at `(r, i)` is the left operand at the tile's row and feature. -/
theorem yblk_apply (c : Dev nD) (t : Fin cfg1.N) (r : Fin 512) (i : Fin 128) :
    yblk V c t (ix2 r i) = Ym V c (tileRow (rowTileOf t) r) (tileFeat (featTileOf t) i) := by
  obtain ⟨e0, e1, -⟩ := idx_facts t
  show (V c main_v6 : S8192x4096.Idx → EReal) (((cfg1.win 0).blk t).view.emb (ix2 r i))
    = (V c main_v6 : S8192x4096.Idx → EReal) (ix2 (tileRow (rowTileOf t) r) (tileFeat (featTileOf t) i))
  refine congrArg _ (funext fun a => Fin.ext ?_)
  match a with
  | ⟨0, _⟩ => show win1_0.index t (0 : Fin 2) * 512 + 1 * r.val = 512 * (t.val / 32) + r.val; rw [e0]; omega
  | ⟨1, _⟩ => show win1_0.index t (1 : Fin 2) * 128 + 1 * i.val = 128 * (t.val % 32) + i.val; rw [e1]; omega

/-- The right block at `(q, i)` is the right operand at row `q` and the tile's feature. -/
theorem wblk_apply (c : Dev nD) (t : Fin cfg1.N) (q : Fin 4096) (i : Fin 128) :
    wblk V c t (ix2 q i) = Wm V c q (tileFeat (featTileOf t) i) := by
  obtain ⟨-, -, e0, e1, -⟩ := idx_facts t
  show (V c main_arg3 : S4096x4096.Idx → EReal) (((cfg1.win 1).blk t).view.emb (ix2 q i))
    = (V c main_arg3 : S4096x4096.Idx → EReal) (ix2 q (tileFeat (featTileOf t) i))
  refine congrArg _ (funext fun a => Fin.ext ?_)
  match a with
  | ⟨0, _⟩ => show win1_1.index t (0 : Fin 2) * 4096 + 1 * q.val = q.val; rw [e0]; omega
  | ⟨1, _⟩ => show win1_1.index t (1 : Fin 2) * 128 + 1 * i.val = 128 * (t.val % 32) + i.val; rw [e1]; omega

/-- The one-row blocks are their whole arrays. -/
theorem bblk_apply (c : Dev nD) (t : Fin cfg1.N) (k : Fin 4096) : bblk V c t (ix2 (0 : Fin 1) k) = bm V c k := by
  obtain ⟨-, -, -, -, e0, e1, -⟩ := idx_facts t
  show (V c main_v3 : S1x4096.Idx → EReal) (((cfg1.win 2).blk t).view.emb (ix2 (0 : Fin 1) k))
    = (V c main_v3 : S1x4096.Idx → EReal) (ix2 (0 : Fin 1) k)
  refine congrArg _ (funext fun a => Fin.ext ?_)
  match a with
  | ⟨0, _⟩ => show win1_2.index t (0 : Fin 2) * 1 + 1 * 0 = 0; rw [e0]
  | ⟨1, _⟩ => show win1_2.index t (1 : Fin 2) * 4096 + 1 * k.val = k.val; rw [e1]; omega
theorem gblk_apply (c : Dev nD) (t : Fin cfg1.N) (k : Fin 4096) : gblk V c t (ix2 (0 : Fin 1) k) = gm V c k := by
  obtain ⟨-, -, -, -, -, -, e0, e1, -⟩ := idx_facts t
  show (V c main_v4 : S1x4096.Idx → EReal) (((cfg1.win 3).blk t).view.emb (ix2 (0 : Fin 1) k))
    = (V c main_v4 : S1x4096.Idx → EReal) (ix2 (0 : Fin 1) k)
  refine congrArg _ (funext fun a => Fin.ext ?_)
  match a with
  | ⟨0, _⟩ => show win1_3.index t (0 : Fin 2) * 1 + 1 * 0 = 0; rw [e0]
  | ⟨1, _⟩ => show win1_3.index t (1 : Fin 2) * 4096 + 1 * k.val = k.val; rw [e1]; omega
theorem sblk_apply (c : Dev nD) (t : Fin cfg1.N) (k : Fin 4096) : sblk V c t (ix2 (0 : Fin 1) k) = sm V c k := by
  obtain ⟨-, -, -, -, -, -, -, -, e0, e1, -⟩ := idx_facts t
  show (V c main_v5 : S1x4096.Idx → EReal) (((cfg1.win 4).blk t).view.emb (ix2 (0 : Fin 1) k))
    = (V c main_v5 : S1x4096.Idx → EReal) (ix2 (0 : Fin 1) k)
  refine congrArg _ (funext fun a => Fin.ext ?_)
  match a with
  | ⟨0, _⟩ => show win1_4.index t (0 : Fin 2) * 1 + 1 * 0 = 0; rw [e0]
  | ⟨1, _⟩ => show win1_4.index t (1 : Fin 2) * 4096 + 1 * k.val = k.val; rw [e1]; omega

/-- Feature tile `s`'s products for row `r` of row tile `a` and output feature `q` (zero off the grid). -/
def tileTerm (c : Dev nD) (a s : ℕ) (r : Fin 512) (q : Fin 4096) : EReal :=
  if h : a < 16 ∧ s < 32 then
    ∑ i : Fin 128, Ym V c (tileRow ⟨a, h.1⟩ r) (tileFeat ⟨s, h.2⟩ i) * Wm V c q (tileFeat ⟨s, h.2⟩ i)
  else 0

theorem tileTerm_pos (c : Dev nD) (a : Fin 16) (s : Fin 32) (r : Fin 512) (q : Fin 4096) :
    tileTerm V c a.val s.val r q = ∑ i : Fin 128, Ym V c (tileRow a r) (tileFeat s i) * Wm V c q (tileFeat s i) :=
  dif_pos ⟨a.isLt, s.isLt⟩

/-- The blocks' products at a point are the point's tile term. -/
theorem tile_eq (c : Dev nD) (t : Fin cfg1.N) (r : Fin 512) (q : Fin 4096) :
    ∑ i : Fin 128, yblk V c t (ix2 r i) * wblk V c t (ix2 q i) = tileTerm V c (t.val / 32) (t.val % 32) r q := by
  refine Eq.trans (Finset.sum_congr rfl fun i _ => ?_) (tileTerm_pos V c (rowTileOf t) (featTileOf t) r q).symm
  rw [yblk_apply V c t r i, wblk_apply V c t q i]

/-- One accumulation step at a point, at `(r, q)`. -/
theorem step_apply (c : Dev nD) (t : Fin cfg1.N) (prev : Vec Ideal S512x4096 .f32) (r : Fin 512) (q : Fin 4096) :
    k1_pay2 (F := Ideal) (yblk V c t) (wblk V c t) prev (ix2 r q)
      = prev (ix2 r q) + tileTerm V c (t.val / 32) (t.val % 32) r q :=
  (pay2_apply (yblk V c t) (wblk V c t) prev r q).trans (congrArg (prev (ix2 r q) + ·) (tile_eq V c t r q))

end Blocks

/-! ## The output block point by point -/

section Accumulate

/-- A resetting point leaves its tile's products. -/
theorem atA (c : Dev nD) (t : Fin cfg1.N) (h0 : t.val % 32 = 0) (h1 : ¬t.val % 32 = 31) (r : Fin 512) (q : Fin 4096) :
    (outsAt1 V c t.val t.isLt : S512x4096.Idx → EReal) (ix2 r q) = tileTerm V c (t.val / 32) (t.val % 32) r q := by
  refine (congrFun (outsAt1_A V c t h0 h1) (ix2 r q)).trans ?_
  refine (congrFun (out_A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h))
    (yblk V c t) (wblk V c t) (bblk V c t) (gblk V c t) (sblk V c t)) (ix2 r q)).trans ?_
  refine (step_apply V c t (k1_pay1 (F := Ideal)) r q).trans ?_
  rw [pay1_apply r q, zero_add]

/-- An accumulating point adds its tile's products to what the point before left. -/
theorem atB (c : Dev nD) (t : Fin cfg1.N) (h0 : ¬t.val % 32 = 0) (h1 : ¬t.val % 32 = 31) (r : Fin 512) (q : Fin 4096) :
    (outsAt1 V c t.val t.isLt : S512x4096.Idx → EReal) (ix2 r q)
      = (outsAt1 V c (t.val - 1) (Nat.lt_of_le_of_lt (Nat.sub_le _ _) t.isLt) : S512x4096.Idx → EReal) (ix2 r q)
        + tileTerm V c (t.val / 32) (t.val % 32) r q := by
  refine (congrFun (outsAt1_B V c t h0 h1) (ix2 r q)).trans ?_
  refine (congrFun (out_B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h))
    (yblk V c t) (wblk V c t) (bblk V c t) (gblk V c t) (sblk V c t)
    (outsAt1 V c (t.val - 1) (Nat.lt_of_le_of_lt (Nat.sub_le _ _) t.isLt))) (ix2 r q)).trans ?_
  exact step_apply V c t (outsAt1 V c (t.val - 1) (Nat.lt_of_le_of_lt (Nat.sub_le _ _) t.isLt)) r q

/-- A finishing point adds its tile's products and the bias, and normalises the row. -/
theorem atC (c : Dev nD) (t : Fin cfg1.N) (h0 : ¬t.val % 32 = 0) (h1 : t.val % 32 = 31) (r : Fin 512) (q : Fin 4096) :
    (outsAt1 V c t.val t.isLt : S512x4096.Idx → EReal) (ix2 r q)
      = lnRow (fun k => ((outsAt1 V c (t.val - 1) (Nat.lt_of_le_of_lt (Nat.sub_le _ _) t.isLt) : S512x4096.Idx → EReal) (ix2 r k)
            + tileTerm V c (t.val / 32) (t.val % 32) r k) + bm V c k) (gm V c) (sm V c) q := by
  refine (congrFun (outsAt1_C V c t h0 h1) (ix2 r q)).trans ?_
  refine (congrFun (out_C (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1)
    (yblk V c t) (wblk V c t) (bblk V c t) (gblk V c t) (sblk V c t)
    (outsAt1 V c (t.val - 1) (Nat.lt_of_le_of_lt (Nat.sub_le _ _) t.isLt))) (ix2 r q)).trans ?_
  refine (pay3_apply (k1_pay2 (F := Ideal) (yblk V c t) (wblk V c t)
    (outsAt1 V c (t.val - 1) (Nat.lt_of_le_of_lt (Nat.sub_le _ _) t.isLt))) (bblk V c t) (gblk V c t) (sblk V c t) r q).trans ?_
  have e1 : (fun k => k1_pay2 (F := Ideal) (yblk V c t) (wblk V c t)
        (outsAt1 V c (t.val - 1) (Nat.lt_of_le_of_lt (Nat.sub_le _ _) t.isLt)) (ix2 r k) + bblk V c t (ix2 (0 : Fin 1) k))
      = fun k => ((outsAt1 V c (t.val - 1) (Nat.lt_of_le_of_lt (Nat.sub_le _ _) t.isLt) : S512x4096.Idx → EReal) (ix2 r k)
            + tileTerm V c (t.val / 32) (t.val % 32) r k) + bm V c k :=
    funext fun k => congrArg₂ (· + ·) (step_apply V c t _ r k) (bblk_apply V c t k)
  have e2 : (fun k => gblk V c t (ix2 (0 : Fin 1) k)) = gm V c := funext fun k => gblk_apply V c t k
  have e3 : (fun k => sblk V c t (ix2 (0 : Fin 1) k)) = sm V c := funext fun k => sblk_apply V c t k
  exact congrFun (congr (congr (congrArg lnRow e1) e2) e3) q

/-- Before the finishing point the block holds the sum of the tile terms so far. -/
theorem acc_eq (c : Dev nD) : ∀ (n : ℕ) (h : n < cfg1.N), n % 32 < 31 → ∀ (r : Fin 512) (q : Fin 4096),
    (outsAt1 V c n h : S512x4096.Idx → EReal) (ix2 r q) = ∑ s ∈ Finset.range (n % 32 + 1), tileTerm V c (n / 32) s r q := by
  intro n
  induction n with
  | zero =>
    intro h _ r q
    refine (atA V c ⟨0, h⟩ rfl (by show ¬(0 : ℕ) % 32 = 31; decide) r q).trans ?_
    show tileTerm V c (0 / 32) (0 % 32) r q = ∑ s ∈ Finset.range (0 % 32 + 1), tileTerm V c (0 / 32) s r q
    rw [Nat.zero_mod, Nat.zero_add, Finset.sum_range_one]
  | succ n ih =>
    intro h hlt r q
    have hN : n + 1 < 512 := lt_of_lt_of_eq h (show cfg1.N = 512 from N_1)
    by_cases h0 : (n + 1) % 32 = 0
    · refine (atA V c ⟨n + 1, h⟩ h0 (by show ¬(n + 1) % 32 = 31; omega) r q).trans ?_
      show tileTerm V c ((n + 1) / 32) ((n + 1) % 32) r q = _
      rw [h0, Nat.zero_add, Finset.sum_range_one]
    · refine (atB V c ⟨n + 1, h⟩ h0 (by show ¬(n + 1) % 32 = 31; omega) r q).trans ?_
      show (outsAt1 V c n (Nat.lt_of_succ_lt h) : S512x4096.Idx → EReal) (ix2 r q) + tileTerm V c ((n + 1) / 32) ((n + 1) % 32) r q = _
      rw [ih (Nat.lt_of_succ_lt h) (by omega) r q]
      have e1 : (n + 1) / 32 = n / 32 := by omega
      have e2 : (n + 1) % 32 = n % 32 + 1 := by omega
      rw [e1, e2, Finset.sum_range_succ _ (n % 32 + 1)]

/-- All 32 tile terms of a row make the affine layer's sum. -/
theorem sum_tileTerms (c : Dev nD) (a : Fin 16) (r : Fin 512) (q : Fin 4096) :
    ∑ s ∈ Finset.range 32, tileTerm V c a.val s r q = ∑ k : Fin 4096, Ym V c (tileRow a r) k * Wm V c q k := by
  rw [sum_range_tiles (fun s => tileTerm V c a.val s r q)]
  rw [← sum_tiles (fun k => Ym V c (tileRow a r) k * Wm V c q k)]
  exact Finset.sum_congr rfl fun s _ => tileTerm_pos V c a s r q

/-- So a finishing point leaves the normalised affine layer of the block's rows. -/
theorem atFlush (c : Dev nD) (t : Fin cfg1.N) (h1 : t.val % 32 = 31) (r : Fin 512) (q : Fin 4096) :
    (outsAt1 V c t.val t.isLt : S512x4096.Idx → EReal) (ix2 r q)
      = lnRow (dense (Ym V c) (Wm V c) (bm V c) (tileRow (rowTileOf t) r)) (gm V c) (sm V c) q := by
  have hN : t.val < 512 := lt_of_lt_of_eq t.isLt (show cfg1.N = 512 from N_1)
  refine (atC V c t (by omega) h1 r q).trans ?_
  refine congrArg (fun y => lnRow y (gm V c) (sm V c) q) (funext fun k => ?_)
  unfold dense
  refine congrArg (· + bm V c k) ?_
  rw [acc_eq V c (t.val - 1) _ (by omega) r k]
  have e1 : (t.val - 1) / 32 = t.val / 32 := by omega
  have e2 : (t.val - 1) % 32 + 1 = 31 := by omega
  rw [e1, e2, h1, ← Finset.sum_range_succ (fun s => tileTerm V c (t.val / 32) s r k) 31]
  exact sum_tileTerms V c (rowTileOf t) r k

end Accumulate

/-! ## The write-backs and the array -/

section Array

/-- What the array ends holding. -/
def G (c : Dev nD) : S8192x4096.Idx → EReal := fun I =>
  lnRow (dense (Ym V c) (Wm V c) (bm V c) ⟨(I 0).val, idx2_lt0 I⟩) (gm V c) (sm V c) ⟨(I 1).val, idx2_lt1 I⟩

/-- A finishing point writes back its block of it. -/
theorem flushed_eq (c : Dev nD) (t : Fin cfg1.N) (hf : (cfg1.win 5).flush t = true) :
    (dat1 (F := Ideal) V c).flushed 5 t = ((cfg1.win 5).blk t).view.read (Elt Ideal) (G V c) := by
  have h31 : t.val % 32 = 31 := (flush1_5 t).mp hf
  obtain ⟨-, -, -, -, -, -, -, -, -, -, e0, e1⟩ := idx_facts t
  show (cfg1.win 5).cut (grid1.coords t) ((dat1 (F := Ideal) V c).after 5 t) = _
  rw [after1_5]
  funext y
  obtain ⟨r, q, rfl⟩ : ∃ (r : Fin 512) (q : Fin 4096), y = ix2 r q := ⟨y 0, y 1, eq_ix2 y⟩
  show (outsAt1 V c t.val t.isLt : S512x4096.Idx → EReal) (ix2 r q) = G V c (((cfg1.win 5).blk t).view.emb (ix2 r q))
  rw [atFlush V c t h31 r q]
  unfold G
  have r0 : (⟨((((cfg1.win 5).blk t).view.emb (ix2 r q) : S8192x4096.Idx) 0).val, idx2_lt0 _⟩ : Fin 8192) = tileRow (rowTileOf t) r := by
    apply Fin.ext
    show win1_5.index t (0 : Fin 2) * 512 + 1 * r.val = 512 * (t.val / 32) + r.val
    rw [e0]; omega
  have q0 : (⟨((((cfg1.win 5).blk t).view.emb (ix2 r q) : S8192x4096.Idx) 1).val, idx2_lt1 _⟩ : Fin 4096) = q := by
    apply Fin.ext
    show win1_5.index t (1 : Fin 2) * 4096 + 1 * q.val = q.val
    rw [e1]; omega
  rw [r0, q0]

/-- Every entry of the array is in some finishing point's block. -/
theorem covered (i : S8192x4096.Idx) :
    ∃ t : Fin cfg1.N, (cfg1.win 5).flush t = true ∧ i ∈ ((cfg1.win 5).blk t).view.set := by
  have hi0 : (i 0).val < 8192 := idx2_lt0 i
  have hi1 : (i 1).val < 4096 := idx2_lt1 i
  have hN : cfg1.N = 512 := N_1
  have ht : 32 * ((i 0).val / 512) + 31 < cfg1.N := by rw [hN]; omega
  refine ⟨⟨32 * ((i 0).val / 512) + 31, ht⟩, (flush1_5 _).mpr (by show (32 * ((i 0).val / 512) + 31) % 32 = 31; omega), ?_⟩
  obtain ⟨-, -, -, -, -, -, -, -, -, -, e0, e1⟩ := idx_facts ⟨32 * ((i 0).val / 512) + 31, ht⟩
  show i ∈ ((View.whole main_v7).slice (win1_5.rect ⟨32 * ((i 0).val / 512) + 31, ht⟩)).set
  rw [View.set_slice_whole, Rect.mem_set_unit]
  intro a
  match a with
  | ⟨0, _⟩ =>
    show win1_5.index ⟨32 * ((i 0).val / 512) + 31, ht⟩ (0 : Fin 2) * 512 ≤ (i 0).val ∧ (i 0).val < win1_5.index ⟨32 * ((i 0).val / 512) + 31, ht⟩ (0 : Fin 2) * 512 + 512
    rw [e0]
    show (32 * ((i 0).val / 512) + 31) / 32 * 512 ≤ (i 0).val ∧ (i 0).val < (32 * ((i 0).val / 512) + 31) / 32 * 512 + 512
    omega
  | ⟨1, _⟩ =>
    show win1_5.index ⟨32 * ((i 0).val / 512) + 31, ht⟩ (1 : Fin 2) * 4096 ≤ (i 1).val ∧ (i 1).val < win1_5.index ⟨32 * ((i 0).val / 512) + 31, ht⟩ (1 : Fin 2) * 4096 + 4096
    rw [e1]
    omega

end Array

/-- After the region, its output array is the row normalisation of `Y · Wᵀ + b`, scaled by `γ` and shifted by `β`. -/
theorem final (c : Dev nD) (R : Fin 8192) (n : Fin 4096) :
    ((dat1 (F := Ideal) V c).arrAt 5 cfg1.N : S8192x4096.Idx → EReal) (ValueIdx.ix2 R n)
      = lnRow (dense (fun R k => (V c main_v6 : S8192x4096.Idx → EReal) (ValueIdx.ix2 R k))
            (fun n k => (V c main_arg3 : S4096x4096.Idx → EReal) (ValueIdx.ix2 n k))
            (fun n => (V c main_v3 : S1x4096.Idx → EReal) (ValueIdx.ix2 (0 : Fin 1) n)) R)
          (fun n => (V c main_v4 : S1x4096.Idx → EReal) (ValueIdx.ix2 (0 : Fin 1) n))
          (fun n => (V c main_v5 : S1x4096.Idx → EReal) (ValueIdx.ix2 (0 : Fin 1) n)) n := by
  have h := (dat1 (F := Ideal) V c).arrAt_eq_of_cover 5 (G V c) (flushed_eq V c) covered
  exact (congrFun h (ValueIdx.ix2 R n)).trans rfl

end Cert.KernelIdeal.YNorm

end
-- ==== Proof.KernelValue.lean ====
/-
  The idealized kernel's result, as a function of its argument arrays.

  The first region finds the activations as launched, the value third of the fused weights (rows 8192 … 12287, a slice
  the host takes before the region) and the value third of the fused bias as a 1 × 4096 row; it leaves `x · W_vᵀ + b_v`.
  The second region finds that array, the output weights as launched and the three 4096-vectors as 1 × 4096 rows; it
  leaves the row normalisation of the output projection.  Composed: `attnNorm` of the arguments.
-/
import proofs.«166793_j8761733284269_1_alg».proof.Proof.LayerSpec
import proofs.«166793_j8761733284269_1_alg».proof.Proof.NamedRun
import proofs.«166793_j8761733284269_1_alg».proof.Proof.VRegion
import proofs.«166793_j8761733284269_1_alg».proof.Proof.YRegion
import Idealize.ShloMosaic.Lib.ValueLayout
import Idealize.ShloMosaic.Lib.StableHlo.Run

set_option maxRecDepth 16384

noncomputable section

namespace Cert.KernelIdeal.Value

open Idealize.ShloMosaic Idealize.ShloMosaic.TcCoe Idealize.SL.Sem Idealize.ShloMosaic.ValueIdx
open Cert.KernelIdeal Cert.KernelIdeal.Gen Cert.VNorm

variable (m : (ℓ : Loc nD τ sig) → Buf (Elt Ideal) ℓ) (ρ : Dev nD → PrngReg)

/-- The arguments as launched, over plain coordinates. -/
abbrev argX (c : Dev nD) : Fin 8192 → Fin 4096 → EReal := fun R k => (m ((c : Thread nD τ).loc main_arg0) : S8192x4096.Idx → EReal) (ix2 R k)
abbrev argWqkv (c : Dev nD) : Fin 12288 → Fin 4096 → EReal := fun r k => (m ((c : Thread nD τ).loc main_arg1) : S12288x4096.Idx → EReal) (ix2 r k)
abbrev argBqkv (c : Dev nD) : Fin 12288 → EReal := fun r => (m ((c : Thread nD τ).loc main_arg2) : S12288.Idx → EReal) (ix1 r)
abbrev argWp (c : Dev nD) : Fin 4096 → Fin 4096 → EReal := fun n k => (m ((c : Thread nD τ).loc main_arg3) : S4096x4096.Idx → EReal) (ix2 n k)
abbrev argBp (c : Dev nD) : Fin 4096 → EReal := fun n => (m ((c : Thread nD τ).loc main_arg4) : S4096.Idx → EReal) (ix1 n)
abbrev argGamma (c : Dev nD) : Fin 4096 → EReal := fun n => (m ((c : Thread nD τ).loc main_arg5) : S4096.Idx → EReal) (ix1 n)
abbrev argBeta (c : Dev nD) : Fin 4096 → EReal := fun n => (m ((c : Thread nD τ).loc main_arg6) : S4096.Idx → EReal) (ix1 n)

/-- The kernel's result array: the layer of the arguments. -/
def result (c : Dev nD) : S8192x4096.Idx → EReal := fun i =>
  attnNorm (argX m c) (argWqkv m c) (argBqkv m c) (argWp m c) (argBp m c) (argGamma m c) (argBeta m c) (i 0) (i 1)

/-! ## What the first region finds -/

theorem entry_x (c : Dev nD) : (V1 m ρ c main_arg0 : S8192x4096.Idx → EReal) = m ((c : Thread nD τ).loc main_arg0) := by
  dsimp only [V1, W1, hostOps0]; after_results

theorem entry_wv (c : Dev nD) : (V1 m ρ c main_v0 : S4096x4096.Idx → EReal)
    = extractStridedSlice S4096x4096 ![8192, 0] (m ((c : Thread nD τ).loc main_arg1)) Facts₀.slices_S12288x4096_S4096x4096_8192_0 := by
  dsimp only [V1, W1, hostOps0]; after_results

theorem entry_bv (c : Dev nD) : (V1 m ρ c main_v2 : S1x4096.Idx → EReal)
    = shapeCast S1x4096 (extractStridedSlice S4096 ![8192] (m ((c : Thread nD τ).loc main_arg2)) Facts₀.slices_S12288_S4096_8192) Facts₀.shapeCasts_S4096_S1x4096 := by
  dsimp only [V1, W1, hostOps0]; after_results; rfl

theorem entry_wp (c : Dev nD) : (V1 m ρ c main_arg3 : S4096x4096.Idx → EReal) = m ((c : Thread nD τ).loc main_arg3) := by
  dsimp only [V1, W1, hostOps0]; after_results

theorem entry_bp (c : Dev nD) : (V1 m ρ c main_v3 : S1x4096.Idx → EReal)
    = shapeCast S1x4096 (m ((c : Thread nD τ).loc main_arg4)) Facts₀.shapeCasts_S4096_S1x4096 := by
  dsimp only [V1, W1, hostOps0]; after_results; rfl

theorem entry_gamma (c : Dev nD) : (V1 m ρ c main_v4 : S1x4096.Idx → EReal)
    = shapeCast S1x4096 (m ((c : Thread nD τ).loc main_arg5)) Facts₀.shapeCasts_S4096_S1x4096 := by
  dsimp only [V1, W1, hostOps0]; after_results; rfl

theorem entry_beta (c : Dev nD) : (V1 m ρ c main_v5 : S1x4096.Idx → EReal)
    = shapeCast S1x4096 (m ((c : Thread nD τ).loc main_arg6)) Facts₀.shapeCasts_S4096_S1x4096 := by
  dsimp only [V1, W1, hostOps0]; after_results; rfl

/-! ## What the second region finds: the first region's output, and every other array as the first found it -/

theorem entry2_y (c : Dev nD) : (V2 m ρ c main_v6 : S8192x4096.Idx → EReal) = (dat0 (V1 m ρ) c).arrAt 3 cfg0.N :=
  W2_arr m ρ c 3

theorem entry2_wp (c : Dev nD) : (V2 m ρ c main_arg3 : S4096x4096.Idx → EReal) = m ((c : Thread nD τ).loc main_arg3) :=
  (W2_of_ne m ρ c main_arg3 (by decide)).trans (entry_wp m ρ c)

theorem entry2_bp (c : Dev nD) : (V2 m ρ c main_v3 : S1x4096.Idx → EReal)
    = shapeCast S1x4096 (m ((c : Thread nD τ).loc main_arg4)) Facts₀.shapeCasts_S4096_S1x4096 :=
  (W2_of_ne m ρ c main_v3 (by decide)).trans (entry_bp m ρ c)

theorem entry2_gamma (c : Dev nD) : (V2 m ρ c main_v4 : S1x4096.Idx → EReal)
    = shapeCast S1x4096 (m ((c : Thread nD τ).loc main_arg5)) Facts₀.shapeCasts_S4096_S1x4096 :=
  (W2_of_ne m ρ c main_v4 (by decide)).trans (entry_gamma m ρ c)

theorem entry2_beta (c : Dev nD) : (V2 m ρ c main_v5 : S1x4096.Idx → EReal)
    = shapeCast S1x4096 (m ((c : Thread nD τ).loc main_arg6)) Facts₀.shapeCasts_S4096_S1x4096 :=
  (W2_of_ne m ρ c main_v5 (by decide)).trans (entry_beta m ρ c)

/-! ## The operands over plain coordinates -/

/-- Row `n` of the sliced weights is row `8192 + n` of the fused weights. -/
theorem wv_apply (c : Dev nD) (n k : Fin 4096) :
    (V1 m ρ c main_v0 : S4096x4096.Idx → EReal) (ix2 n k) = argWqkv m c (vthird n) k := by
  rw [entry_wv]
  exact slice2_axis0_apply 8192 _ _ n k (vthird n) rfl

/-- Entry `n` of the bias row is entry `8192 + n` of the fused bias. -/
theorem bv_apply (c : Dev nD) (n : Fin 4096) :
    (V1 m ρ c main_v2 : S1x4096.Idx → EReal) (ix2 (0 : Fin 1) n) = argBqkv m c (vthird n) := by
  rw [entry_bv, shapeCast_a_1a_apply]
  exact extractStridedSlice_apply _ _ _ _ _ (fun ax => by
    match ax with
    | ⟨0, _⟩ => rfl)

theorem bp_apply (c : Dev nD) (n : Fin 4096) : (V2 m ρ c main_v3 : S1x4096.Idx → EReal) (ix2 (0 : Fin 1) n) = argBp m c n := by
  rw [entry2_bp, shapeCast_a_1a_apply]
theorem gamma_apply (c : Dev nD) (n : Fin 4096) : (V2 m ρ c main_v4 : S1x4096.Idx → EReal) (ix2 (0 : Fin 1) n) = argGamma m c n := by
  rw [entry2_gamma, shapeCast_a_1a_apply]
theorem beta_apply (c : Dev nD) (n : Fin 4096) : (V2 m ρ c main_v5 : S1x4096.Idx → EReal) (ix2 (0 : Fin 1) n) = argBeta m c n := by
  rw [entry2_beta, shapeCast_a_1a_apply]

/-- The first region's output, as the second finds it: the value projection of the arguments. -/
theorem y_apply (c : Dev nD) (R : Fin 8192) (k : Fin 4096) :
    (V2 m ρ c main_v6 : S8192x4096.Idx → EReal) (ix2 R k)
      = dense (argX m c) (fun n k => argWqkv m c (vthird n) k) (fun n => argBqkv m c (vthird n)) R k := by
  rw [entry2_y, VProj.final (V1 m ρ) c R k]
  have e0 : (fun (R : Fin 8192) (k : Fin 4096) => (V1 m ρ c main_arg0 : S8192x4096.Idx → EReal) (ix2 R k)) = argX m c := by
    rw [entry_x]
  have e1 : (fun (n k : Fin 4096) => (V1 m ρ c main_v0 : S4096x4096.Idx → EReal) (ix2 n k)) = fun n k => argWqkv m c (vthird n) k :=
    funext fun n => funext fun k => wv_apply m ρ c n k
  have e2 : (fun (n : Fin 4096) => (V1 m ρ c main_v2 : S1x4096.Idx → EReal) (ix2 (0 : Fin 1) n)) = fun n => argBqkv m c (vthird n) :=
    funext fun n => bv_apply m ρ c n
  rw [e0, e1, e2]

/-- The result array the run leaves is the layer of the arguments. -/
theorem resultAt_eq (c : Dev nD) : Named.resultAt m ρ c = result m c := by
  funext i
  obtain ⟨R, n, rfl⟩ : ∃ (R : Fin 8192) (n : Fin 4096), i = ix2 R n := ⟨i 0, i 1, eq_ix2 i⟩
  rw [Named.resultAt_eq]
  refine (YNorm.final (V2 m ρ) c R n).trans ?_
  have e0 : (fun (R : Fin 8192) (k : Fin 4096) => (V2 m ρ c main_v6 : S8192x4096.Idx → EReal) (ix2 R k))
      = dense (argX m c) (fun n k => argWqkv m c (vthird n) k) (fun n => argBqkv m c (vthird n)) :=
    funext fun R => funext fun k => y_apply m ρ c R k
  have e1 : (fun (n k : Fin 4096) => (V2 m ρ c main_arg3 : S4096x4096.Idx → EReal) (ix2 n k)) = argWp m c := by
    rw [entry2_wp]
  have e2 : (fun (n : Fin 4096) => (V2 m ρ c main_v3 : S1x4096.Idx → EReal) (ix2 (0 : Fin 1) n)) = argBp m c :=
    funext fun n => bp_apply m ρ c n
  have e3 : (fun (n : Fin 4096) => (V2 m ρ c main_v4 : S1x4096.Idx → EReal) (ix2 (0 : Fin 1) n)) = argGamma m c :=
    funext fun n => gamma_apply m ρ c n
  have e4 : (fun (n : Fin 4096) => (V2 m ρ c main_v5 : S1x4096.Idx → EReal) (ix2 (0 : Fin 1) n)) = argBeta m c :=
    funext fun n => beta_apply m ρ c n
  rw [e0, e1, e2, e3, e4]
  rfl

/-- The run, read: the result array at the layer of the arguments, the arguments as launched. -/
theorem run : θ_run defs (onTc (τ := τ) (main (F := Ideal))) ⟨m, fun _ => 0, ρ⟩ (fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (resultAt_eq m ρ c), (h c).2⟩) (Named.run (F := Ideal) m ρ)

end Cert.KernelIdeal.Value

end
-- ==== Proof.RefTerm.lean ====
/-
  The reference's result as ONE term of its argument arrays, in stages named after what each computes: the fused
  query/key/value projection (`fused`), its split into three stacks of heads (`split`, `headQ`, `headK`, `headV`), a
  head's logits scaled by `1/64` (`logits`), the softmax over the one-element key axis (`expShift`, `softmax`), the
  weighted values laid back as rows (`mix`), the output projection (`outProj`), and the row normalisation (`mean`,
  `count`, `variance`, `normalize`).  Each stage is the program's own operations in order, nothing simplified: the run
  of the program ends with its result at `out` of the arguments by unfolding alone.
-/
import proofs.«166793_j8761733284269_1_alg».proof.ReferenceIdeal

noncomputable section

namespace Cert.ReferenceIdeal.Term

open Idealize.ShloMosaic Cert.ReferenceIdeal

variable {F : FTy → Type} [FloatOps F] [Facts]
open Facts₀ Facts

/-- `x · W_qkvᵀ + b_qkv`, all 12288 output features. -/
def fused (x : Vec F S8192x4096 .f32) (W : Vec F S12288x4096 .f32) (b : Vec F S12288 .f32) : Vec F S8192x12288 .f32 :=
  addf (Host.dotGeneral dot_S8192x4096_S4096x12288_S8192x12288_1_0_0_1_n_n none x
      (transpose S4096x12288 [1, 0] W transposes_S12288x4096_S4096x12288_1_0))
    (broadcastInDim S8192x12288 ![0, 1] bcast_S1x12288_S8192x12288_0_1 (broadcastInDim S1x12288 ![1] bcast_S12288_S1x12288_1 b))

/-- The 12288 features as (sequence 1, which 3, head 8, depth 512), then `which` moved to the front. -/
def split (a : Vec F S8192x12288 .f32) : Vec F S3x8192x8x1x512 .f32 :=
  transpose S3x8192x8x1x512 [2, 0, 3, 1, 4] (shapeCast S8192x1x3x8x512 a shapeCasts_S8192x12288_S8192x1x3x8x512)
    transposes_S8192x1x3x8x512_S3x8192x8x1x512_2_0_3_1_4

/-- The queries: stack 0. -/
def headQ (h : Vec F S3x8192x8x1x512 .f32) : Vec F S8192x8x1x512 .f32 :=
  shapeCast S8192x8x1x512 (extractStridedSlice S1x8192x8x1x512 ![0, 0, 0, 0, 0] h slices_S3x8192x8x1x512_S1x8192x8x1x512_0_0_0_0_0)
    shapeCasts_S1x8192x8x1x512_S8192x8x1x512
/-- The keys: stack 1. -/
def headK (h : Vec F S3x8192x8x1x512 .f32) : Vec F S8192x8x1x512 .f32 :=
  shapeCast S8192x8x1x512 (extractStridedSlice S1x8192x8x1x512 ![1, 0, 0, 0, 0] h slices_S3x8192x8x1x512_S1x8192x8x1x512_1_0_0_0_0)
    shapeCasts_S1x8192x8x1x512_S8192x8x1x512
/-- The values: stack 2. -/
def headV (h : Vec F S3x8192x8x1x512 .f32) : Vec F S8192x8x1x512 .f32 :=
  shapeCast S8192x8x1x512 (extractStridedSlice S1x8192x8x1x512 ![2, 0, 0, 0, 0] h slices_S3x8192x8x1x512_S1x8192x8x1x512_2_0_0_0_0)
    shapeCasts_S1x8192x8x1x512_S8192x8x1x512

/-- A head's one logit: `q · k` over the depth, times `1/64`. -/
def logits (q k : Vec F S8192x8x1x512 .f32) : Vec F S8192x8x1x1 .f32 :=
  mulf (Host.dotGeneral dot_S8192x8x1x512_S8192x8x1x512_S8192x8x1x1_3_3_2_2_01_01 none q k)
    (broadcastInDim S8192x8x1x1 ![] bcast_S_S8192x8x1x1 (constant S_ .f32 0x3C800000#32))

/-- `exp (s - max s)`, the maximum over the one-element key axis taken from `-∞` twice as the program does. -/
def expShift (s : Vec F S8192x8x1x1 .f32) : Vec F S8192x8x1x1 .f32 :=
  Host.exp (subf s (broadcastInDim S8192x8x1x1 ![0, 1, 2] bcast_S8192x8x1_S8192x8x1x1_0_1_2
    (maximumf (broadcastInDim S8192x8x1 ![] bcast_S_S8192x8x1 (constant S_ .f32 0xFF800000#32))
      (Host.reduce FloatOps.maximumf s (constant S_ .f32 0xFF800000#32) reducesTo_S8192x8x1x1_S8192x8x1_d3 h_S_))))

/-- The softmax over the key axis. -/
def softmax (s : Vec F S8192x8x1x1 .f32) : Vec F S8192x8x1x1 .f32 :=
  Host.divf (expShift s) (broadcastInDim S8192x8x1x1 ![0, 1, 2] bcast_S8192x8x1_S8192x8x1x1_0_1_2
    (Host.reduceAdd (expShift s) (constant S_ .f32 0x00000000#32) reducesTo_S8192x8x1x1_S8192x8x1_d3 h_S_))

/-- The weights applied to the values, heads laid back side by side as one row of 4096. -/
def mix (w : Vec F S8192x8x1x1 .f32) (v : Vec F S8192x8x1x512 .f32) : Vec F S8192x4096 .f32 :=
  shapeCast S8192x4096 (transpose S8192x1x8x512 [0, 2, 1, 3]
      (Host.dotGeneral dot_S8192x8x1x1_S8192x8x1x512_S8192x8x1x512_3_2_2_3_01_01 none w v)
      transposes_S8192x8x1x512_S8192x1x8x512_0_2_1_3)
    shapeCasts_S8192x1x8x512_S8192x4096

/-- `o · W_projᵀ + b_proj`. -/
def outProj (o : Vec F S8192x4096 .f32) (Wp : Vec F S4096x4096 .f32) (bp : Vec F S4096 .f32) : Vec F S8192x4096 .f32 :=
  addf (Host.dotGeneral dot_S8192x4096_S4096x4096_S8192x4096_1_0_0_1_n_n none o
      (transpose S4096x4096 [1, 0] Wp transposes_S4096x4096_S4096x4096_1_0))
    (broadcastInDim S8192x4096 ![0, 1] bcast_S1x4096_S8192x4096_0_1 (broadcastInDim S1x4096 ![1] bcast_S4096_S1x4096_1 bp))

/-- Each row's mean, kept as a column. -/
def mean (y : Vec F S8192x4096 .f32) : Vec F S8192x1 .f32 :=
  Host.divf (broadcastInDim S8192x1 ![0] bcast_S8192_S8192x1_0
      (Host.reduceAdd y (constant S_ .f32 0x00000000#32) reducesTo_S8192x4096_S8192_d1 h_S_))
    (broadcastInDim S8192x1 ![] bcast_S_S8192x1 (constant S_ .f32 0x45800000#32))

/-- The variance's divisor: the row length less the (zero) correction. -/
def count : Vec F S_ .f32 := subf (constant S_ .f32 0x45800000#32) (sitofp .f32 (constantI S_ 32 0#32))

/-- Each row's variance, kept as a column: the guarded quotient jnp.var computes. -/
def variance (y : Vec F S8192x4096 .f32) : Vec F S8192x1 .f32 :=
  select (broadcastInDim S8192x1 ![] bcast_S_S8192x1 (cmpf .ogt (count (F := F)) (constant S_ .f32 0x00000000#32)))
    (Host.divf (broadcastInDim S8192x1 ![0] bcast_S8192_S8192x1_0
        (Host.reduceAdd (mulf (subf y (broadcastInDim S8192x4096 ![0, 1] bcast_S8192x1_S8192x4096_0_1 (mean y)))
            (subf y (broadcastInDim S8192x4096 ![0, 1] bcast_S8192x1_S8192x4096_0_1 (mean y))))
          (constant S_ .f32 0x00000000#32) reducesTo_S8192x4096_S8192_d1 h_S_))
      (broadcastInDim S8192x1 ![] bcast_S_S8192x1 (count (F := F))))
    (broadcastInDim S8192x1 ![] bcast_S_S8192x1 (id (constant S_ .f32 0x7FC00000#32)))

/-- The rows normalised, scaled and shifted. -/
def normalize (y : Vec F S8192x4096 .f32) (γ β : Vec F S4096 .f32) : Vec F S8192x4096 .f32 :=
  addf (mulf (mulf (subf y (broadcastInDim S8192x4096 ![0, 1] bcast_S8192x1_S8192x4096_0_1 (mean y)))
        (broadcastInDim S8192x4096 ![0, 1] bcast_S8192x1_S8192x4096_0_1
          (Host.rsqrt (addf (variance y) (broadcastInDim S8192x1 ![] bcast_S_S8192x1 (constant S_ .f32 0x3727C5AC#32))))))
      (broadcastInDim S8192x4096 ![0, 1] bcast_S1x4096_S8192x4096_0_1 (broadcastInDim S1x4096 ![1] bcast_S4096_S1x4096_1 γ)))
    (broadcastInDim S8192x4096 ![0, 1] bcast_S1x4096_S8192x4096_0_1 (broadcastInDim S1x4096 ![1] bcast_S4096_S1x4096_1 β))

/-- The three stacks of heads of the fused projection. -/
def heads (x : Vec F S8192x4096 .f32) (W : Vec F S12288x4096 .f32) (b : Vec F S12288 .f32) : Vec F S3x8192x8x1x512 .f32 :=
  split (fused x W b)

/-- The reference's result. -/
def out (x : Vec F S8192x4096 .f32) (Wqkv : Vec F S12288x4096 .f32) (bqkv : Vec F S12288 .f32) (Wp : Vec F S4096x4096 .f32)
    (bp γ β : Vec F S4096 .f32) : Vec F S8192x4096 .f32 :=
  normalize (outProj (mix (softmax (logits (headQ (heads x Wqkv bqkv)) (headK (heads x Wqkv bqkv)))) (headV (heads x Wqkv bqkv))) Wp bp) γ β

end Cert.ReferenceIdeal.Term

end
-- ==== Proof.RefRun.lean ====
/-
  The reference's run: @main and the two functions it calls, as one straight line of operations, run from any memory;
  every weakly fair execution terminates with the result array at the staged term of the arguments (`Term.out`) and the
  arguments unchanged.
-/
import proofs.«166793_j8761733284269_1_alg».proof.Proof.RefTerm
import proofs.«166793_j8761733284269_1_alg».proof.Proof.Gen.ReferenceIdeal
import Idealize.ShloMosaic.Lib.StableHlo.Run

noncomputable section

namespace Cert.ReferenceIdeal.HandRun

open Idealize.ShloMosaic Idealize.SL.Sem Idealize.ShloMosaic.StableHlo
open Cert.ReferenceIdeal Cert.ReferenceIdeal.Gen

variable {F : FTy → Type} [FloatOps F]

/-- @main's operations in order, the calls unfolded: its first forty-four (the fused projection, the heads, the softmax,
    the output projection, the rows' mean, the zero correction), then the variance's twenty over `main_call0`'s arrays
    (the mean again, the squared deviations, their sum over the count, the count's sign), then the guard's three over
    `main_call0.call0`'s (the not-a-number word converted, broadcast, the select into `main_v37`), then @main's last
    fourteen (the normalisation, scale and shift). -/
abbrev ops : List (HloOp τ sig (Elt F)) :=
  [ StableHlo.unary main_arg1 main_v0 ((transpose S4096x12288 [1, 0] · transposes_S12288x4096_S4096x12288_1_0) : (⟨S12288x4096, .f32⟩ : BufTy).Contents (Elt F) → (⟨S4096x12288, .f32⟩ : BufTy).Contents (Elt F)),
    StableHlo.binary main_arg0 main_v0 main_v1 ((fun l r => Host.dotGeneral dot_S8192x4096_S4096x12288_S8192x12288_1_0_0_1_n_n none l r) : (⟨S8192x4096, .f32⟩ : BufTy).Contents (Elt F) → (⟨S4096x12288, .f32⟩ : BufTy).Contents (Elt F) → (⟨S8192x12288, .f32⟩ : BufTy).Contents (Elt F)),
    StableHlo.unary main_arg2 main_v2 (broadcastInDim S1x12288 ![1] bcast_S12288_S1x12288_1 : (⟨S12288, .f32⟩ : BufTy).Contents (Elt F) → (⟨S1x12288, .f32⟩ : BufTy).Contents (Elt F)),
    StableHlo.unary main_v2 main_v3 (broadcastInDim S8192x12288 ![0, 1] bcast_S1x12288_S8192x12288_0_1 : (⟨S1x12288, .f32⟩ : BufTy).Contents (Elt F) → (⟨S8192x12288, .f32⟩ : BufTy).Contents (Elt F)),
    StableHlo.binary main_v1 main_v3 main_v4 (addf : (⟨S8192x12288, .f32⟩ : BufTy).Contents (Elt F) → (⟨S8192x12288, .f32⟩ : BufTy).Contents (Elt F) → (⟨S8192x12288, .f32⟩ : BufTy).Contents (Elt F)),
    StableHlo.reshape main_v4 main_v5 rfl shapeCasts_S8192x12288_S8192x1x3x8x512,
    StableHlo.unary main_v5 main_v6 ((transpose S3x8192x8x1x512 [2, 0, 3, 1, 4] · transposes_S8192x1x3x8x512_S3x8192x8x1x512_2_0_3_1_4) : (⟨S8192x1x3x8x512, .f32⟩ : BufTy).Contents (Elt F) → (⟨S3x8192x8x1x512, .f32⟩ : BufTy).Contents (Elt F)),
    StableHlo.unary main_v6 main_v7 ((extractStridedSlice S1x8192x8x1x512 ![0, 0, 0, 0, 0] · slices_S3x8192x8x1x512_S1x8192x8x1x512_0_0_0_0_0) : (⟨S3x8192x8x1x512, .f32⟩ : BufTy).Contents (Elt F) → (⟨S1x8192x8x1x512, .f32⟩ : BufTy).Contents (Elt F)),
    StableHlo.reshape main_v7 main_v8 rfl shapeCasts_S1x8192x8x1x512_S8192x8x1x512,
    StableHlo.unary main_v6 main_v9 ((extractStridedSlice S1x8192x8x1x512 ![1, 0, 0, 0, 0] · slices_S3x8192x8x1x512_S1x8192x8x1x512_1_0_0_0_0) : (⟨S3x8192x8x1x512, .f32⟩ : BufTy).Contents (Elt F) → (⟨S1x8192x8x1x512, .f32⟩ : BufTy).Contents (Elt F)),
    StableHlo.reshape main_v9 main_v10 rfl shapeCasts_S1x8192x8x1x512_S8192x8x1x512,
    StableHlo.unary main_v6 main_v11 ((extractStridedSlice S1x8192x8x1x512 ![2, 0, 0, 0, 0] · slices_S3x8192x8x1x512_S1x8192x8x1x512_2_0_0_0_0) : (⟨S3x8192x8x1x512, .f32⟩ : BufTy).Contents (Elt F) → (⟨S1x8192x8x1x512, .f32⟩ : BufTy).Contents (Elt F)),
    StableHlo.reshape main_v11 main_v12 rfl shapeCasts_S1x8192x8x1x512_S8192x8x1x512,
    StableHlo.binary main_v8 main_v10 main_v13 ((fun l r => Host.dotGeneral dot_S8192x8x1x512_S8192x8x1x512_S8192x8x1x1_3_3_2_2_01_01 none l r) : (⟨S8192x8x1x512, .f32⟩ : BufTy).Contents (Elt F) → (⟨S8192x8x1x512, .f32⟩ : BufTy).Contents (Elt F) → (⟨S8192x8x1x1, .f32⟩ : BufTy).Contents (Elt F)),
    StableHlo.nullary main_cst (constant S_ .f32 0x3C800000#32),
    StableHlo.unary main_cst main_v14 (broadcastInDim S8192x8x1x1 ![] bcast_S_S8192x8x1x1 : (⟨S_, .f32⟩ : BufTy).Contents (Elt F) → (⟨S8192x8x1x1, .f32⟩ : BufTy).Contents (Elt F)),
    StableHlo.binary main_v13 main_v14 main_v15 (mulf : (⟨S8192x8x1x1, .f32⟩ : BufTy).Contents (Elt F) → (⟨S8192x8x1x1, .f32⟩ : BufTy).Contents (Elt F) → (⟨S8192x8x1x1, .f32⟩ : BufTy).Contents (Elt F)),
    StableHlo.nullary main_cst_0 (constant S_ .f32 0xFF800000#32),
    StableHlo.binary main_v15 main_cst_0 main_v16 ((fun x v => Host.reduce FloatOps.maximumf x v reducesTo_S8192x8x1x1_S8192x8x1_d3 h_S_) : (⟨S8192x8x1x1, .f32⟩ : BufTy).Contents (Elt F) → (⟨S_, .f32⟩ : BufTy).Contents (Elt F) → (⟨S8192x8x1, .f32⟩ : BufTy).Contents (Elt F)),
    StableHlo.nullary main_cst_1 (constant S_ .f32 0xFF800000#32),
    StableHlo.unary main_cst_1 main_v17 (broadcastInDim S8192x8x1 ![] bcast_S_S8192x8x1 : (⟨S_, .f32⟩ : BufTy).Contents (Elt F) → (⟨S8192x8x1, .f32⟩ : BufTy).Contents (Elt F)),
    StableHlo.binary main_v17 main_v16 main_v18 (maximumf : (⟨S8192x8x1, .f32⟩ : BufTy).Contents (Elt F) → (⟨S8192x8x1, .f32⟩ : BufTy).Contents (Elt F) → (⟨S8192x8x1, .f32⟩ : BufTy).Contents (Elt F)),
    StableHlo.unary main_v18 main_v19 (broadcastInDim S8192x8x1x1 ![0, 1, 2] bcast_S8192x8x1_S8192x8x1x1_0_1_2 : (⟨S8192x8x1, .f32⟩ : BufTy).Contents (Elt F) → (⟨S8192x8x1x1, .f32⟩ : BufTy).Contents (Elt F)),
    StableHlo.binary main_v15 main_v19 main_v20 (subf : (⟨S8192x8x1x1, .f32⟩ : BufTy).Contents (Elt F) → (⟨S8192x8x1x1, .f32⟩ : BufTy).Contents (Elt F) → (⟨S8192x8x1x1, .f32⟩ : BufTy).Contents (Elt F)),
    StableHlo.unary main_v20 main_v21 (Host.exp : (⟨S8192x8x1x1, .f32⟩ : BufTy).Contents (Elt F) → (⟨S8192x8x1x1, .f32⟩ : BufTy).Contents (Elt F)),
    StableHlo.nullary main_cst_2 (constant S_ .f32 0x00000000#32),
    StableHlo.binary main_v21 main_cst_2 main_v22 ((fun x v => Host.reduceAdd x v reducesTo_S8192x8x1x1_S8192x8x1_d3 h_S_) : (⟨S8192x8x1x1, .f32⟩ : BufTy).Contents (Elt F) → (⟨S_, .f32⟩ : BufTy).Contents (Elt F) → (⟨S8192x8x1, .f32⟩ : BufTy).Contents (Elt F)),
    StableHlo.unary main_v22 main_v23 (broadcastInDim S8192x8x1x1 ![0, 1, 2] bcast_S8192x8x1_S8192x8x1x1_0_1_2 : (⟨S8192x8x1, .f32⟩ : BufTy).Contents (Elt F) → (⟨S8192x8x1x1, .f32⟩ : BufTy).Contents (Elt F)),
    StableHlo.binary main_v21 main_v23 main_v24 (Host.divf : (⟨S8192x8x1x1, .f32⟩ : BufTy).Contents (Elt F) → (⟨S8192x8x1x1, .f32⟩ : BufTy).Contents (Elt F) → (⟨S8192x8x1x1, .f32⟩ : BufTy).Contents (Elt F)),
    StableHlo.binary main_v24 main_v12 main_v25 ((fun l r => Host.dotGeneral dot_S8192x8x1x1_S8192x8x1x512_S8192x8x1x512_3_2_2_3_01_01 none l r) : (⟨S8192x8x1x1, .f32⟩ : BufTy).Contents (Elt F) → (⟨S8192x8x1x512, .f32⟩ : BufTy).Contents (Elt F) → (⟨S8192x8x1x512, .f32⟩ : BufTy).Contents (Elt F)),
    StableHlo.unary main_v25 main_v26 ((transpose S8192x1x8x512 [0, 2, 1, 3] · transposes_S8192x8x1x512_S8192x1x8x512_0_2_1_3) : (⟨S8192x8x1x512, .f32⟩ : BufTy).Contents (Elt F) → (⟨S8192x1x8x512, .f32⟩ : BufTy).Contents (Elt F)),
    StableHlo.reshape main_v26 main_v27 rfl shapeCasts_S8192x1x8x512_S8192x4096,
    StableHlo.unary main_arg3 main_v28 ((transpose S4096x4096 [1, 0] · transposes_S4096x4096_S4096x4096_1_0) : (⟨S4096x4096, .f32⟩ : BufTy).Contents (Elt F) → (⟨S4096x4096, .f32⟩ : BufTy).Contents (Elt F)),
    StableHlo.binary main_v27 main_v28 main_v29 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)),
    StableHlo.unary main_arg4 main_v30 (broadcastInDim S1x4096 ![1] bcast_S4096_S1x4096_1 : (⟨S4096, .f32⟩ : BufTy).Contents (Elt F) → (⟨S1x4096, .f32⟩ : BufTy).Contents (Elt F)),
    StableHlo.unary main_v30 main_v31 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v29 main_v31 main_v32 (addf : (⟨S8192x4096, .f32⟩ : BufTy).Contents (Elt F) → (⟨S8192x4096, .f32⟩ : BufTy).Contents (Elt F) → (⟨S8192x4096, .f32⟩ : BufTy).Contents (Elt F)),
    StableHlo.nullary main_cst_3 (constant S_ .f32 0x00000000#32),
    StableHlo.binary main_v32 main_cst_3 main_v33 ((fun x v => Host.reduceAdd x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    StableHlo.unary main_v33 main_v34 (broadcastInDim S8192x1 ![0] bcast_S8192_S8192x1_0 : (⟨S8192, .f32⟩ : BufTy).Contents (Elt F) → (⟨S8192x1, .f32⟩ : BufTy).Contents (Elt F)),
    StableHlo.nullary main_cst_4 (constant S_ .f32 0x45800000#32),
    StableHlo.unary main_cst_4 main_v35 (broadcastInDim S8192x1 ![] bcast_S_S8192x1 : (⟨S_, .f32⟩ : BufTy).Contents (Elt F) → (⟨S8192x1, .f32⟩ : BufTy).Contents (Elt F)),
    StableHlo.binary main_v34 main_v35 main_v36 (Host.divf : (⟨S8192x1, .f32⟩ : BufTy).Contents (Elt F) → (⟨S8192x1, .f32⟩ : BufTy).Contents (Elt F) → (⟨S8192x1, .f32⟩ : BufTy).Contents (Elt F)),
    StableHlo.nullary main_c (constantI S_ 32 0#32),
    StableHlo.TRef.nullary main_call0.cst (constant S_ .f32 0x00000000#32),
    StableHlo.TRef.binary (.of main_v32) main_call0.cst main_call0.v0 (fun x v => Host.reduceAdd x v reducesTo_S8192x4096_S8192_d1 h_S_),
    StableHlo.TRef.unary main_call0.v0 main_call0.v1 (broadcastInDim S8192x1 ![0] bcast_S8192_S8192x1_0),
    StableHlo.TRef.nullary main_call0.cst_0 (constant S_ .f32 0x45800000#32),
    StableHlo.TRef.unary main_call0.cst_0 main_call0.v2 (broadcastInDim S8192x1 ![] bcast_S_S8192x1),
    StableHlo.TRef.binary main_call0.v1 main_call0.v2 main_call0.v3 Host.divf,
    StableHlo.TRef.unary main_call0.v3 main_call0.v4 (broadcastInDim S8192x4096 ![0, 1] bcast_S8192x1_S8192x4096_0_1),
    StableHlo.TRef.binary (.of main_v32) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x45800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S8192x4096_S8192_d1 h_S_),
    StableHlo.TRef.unary main_call0.v9 main_call0.v10 (broadcastInDim S8192x1 ![0] bcast_S8192_S8192x1_0),
    StableHlo.TRef.unary main_call0.v8 main_call0.v11 (broadcastInDim S8192x1 ![] bcast_S_S8192x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S8192x1 ![] bcast_S_S8192x1),
    StableHlo.TRef.ternary main_call0.v13 main_call0.v12 main_call0.call0.v1 main_call0.call0.v2 (fun p a b => select (broadcastInDim S8192x1 ![] bcast_S_S8192x1 p) a b),
    StableHlo.unary main_v36 main_v38 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v32 main_v38 main_v39 (subf : (⟨S8192x4096, .f32⟩ : BufTy).Contents (Elt F) → (⟨S8192x4096, .f32⟩ : BufTy).Contents (Elt F) → (⟨S8192x4096, .f32⟩ : BufTy).Contents (Elt F)),
    StableHlo.nullary main_cst_5 (constant S_ .f32 0x3727C5AC#32),
    StableHlo.unary main_cst_5 main_v40 (broadcastInDim S8192x1 ![] bcast_S_S8192x1 : (⟨S_, .f32⟩ : BufTy).Contents (Elt F) → (⟨S8192x1, .f32⟩ : BufTy).Contents (Elt F)),
    StableHlo.binary main_v37 main_v40 main_v41 (addf : (⟨S8192x1, .f32⟩ : BufTy).Contents (Elt F) → (⟨S8192x1, .f32⟩ : BufTy).Contents (Elt F) → (⟨S8192x1, .f32⟩ : BufTy).Contents (Elt F)),
    StableHlo.unary main_v41 main_v42 (Host.rsqrt : (⟨S8192x1, .f32⟩ : BufTy).Contents (Elt F) → (⟨S8192x1, .f32⟩ : BufTy).Contents (Elt F)),
    StableHlo.unary main_v42 main_v43 (broadcastInDim S8192x4096 ![0, 1] bcast_S8192x1_S8192x4096_0_1 : (⟨S8192x1, .f32⟩ : BufTy).Contents (Elt F) → (⟨S8192x4096, .f32⟩ : BufTy).Contents (Elt F)),
    StableHlo.binary main_v39 main_v43 main_v44 (mulf : (⟨S8192x4096, .f32⟩ : BufTy).Contents (Elt F) → (⟨S8192x4096, .f32⟩ : BufTy).Contents (Elt F) → (⟨S8192x4096, .f32⟩ : BufTy).Contents (Elt F)),
    StableHlo.unary main_arg5 main_v45 (broadcastInDim S1x4096 ![1] bcast_S4096_S1x4096_1 : (⟨S4096, .f32⟩ : BufTy).Contents (Elt F) → (⟨S1x4096, .f32⟩ : BufTy).Contents (Elt F)),
    StableHlo.unary main_v45 main_v46 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v44 main_v46 main_v47 (mulf : (⟨S8192x4096, .f32⟩ : BufTy).Contents (Elt F) → (⟨S8192x4096, .f32⟩ : BufTy).Contents (Elt F) → (⟨S8192x4096, .f32⟩ : BufTy).Contents (Elt F)),
    StableHlo.unary main_arg6 main_v48 (broadcastInDim S1x4096 ![1] bcast_S4096_S1x4096_1 : (⟨S4096, .f32⟩ : BufTy).Contents (Elt F) → (⟨S1x4096, .f32⟩ : BufTy).Contents (Elt F)),
    StableHlo.unary main_v48 main_v49 (broadcastInDim S8192x4096 ![0, 1] bcast_S1x4096_S8192x4096_0_1 : (⟨S1x4096, .f32⟩ : BufTy).Contents (Elt F) → (⟨S8192x4096, .f32⟩ : BufTy).Contents (Elt F)),
    StableHlo.binary main_v47 main_v49 main_v50 (addf : (⟨S8192x4096, .f32⟩ : BufTy).Contents (Elt F) → (⟨S8192x4096, .f32⟩ : BufTy).Contents (Elt F) → (⟨S8192x4096, .f32⟩ : BufTy).Contents (Elt F)) ]

set_option maxRecDepth 4096 in
set_option maxHeartbeats 1000000 in
/-- @main is that straight line: the two functions' definitions unfolded at their calls, both sides are one chain of
    operations once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., reshape_bufs_sub ..,
    unary_bufs_sub .., unary_bufs_sub .., reshape_bufs_sub .., unary_bufs_sub .., reshape_bufs_sub .., unary_bufs_sub ..,
    reshape_bufs_sub .., binary_bufs_sub .., nullary_bufs_sub .., unary_bufs_sub .., binary_bufs_sub .., nullary_bufs_sub ..,
    binary_bufs_sub .., nullary_bufs_sub .., unary_bufs_sub .., binary_bufs_sub .., unary_bufs_sub .., binary_bufs_sub ..,
    unary_bufs_sub .., nullary_bufs_sub .., binary_bufs_sub .., unary_bufs_sub .., binary_bufs_sub .., binary_bufs_sub ..,
    unary_bufs_sub .., reshape_bufs_sub .., unary_bufs_sub .., binary_bufs_sub .., unary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub ..⟩

attribute [local irreducible] Host.reduce Host.reduceAdd Host.exp Host.rsqrt Host.divf transpose shapeCast
  extractStridedSlice broadcastInDim in
set_option maxRecDepth 8192 in
set_option maxHeartbeats 1000000 in
/-- The fold at the result array is the staged term of the arguments, by unfolding alone: each operation's result is
    its function of the arrays it reads, and the stages are those functions composed in the program's order. -/
theorem out_eq (V : Valuation τ sig (Elt F)) :
    after ops V (Proc.devRef .tc main_v50 : DevRef τ sig)
      = Term.out (V (Proc.devRef .tc main_arg0 : DevRef τ sig)) (V (Proc.devRef .tc main_arg1 : DevRef τ sig)) (V (Proc.devRef .tc main_arg2 : DevRef τ sig))
          (V (Proc.devRef .tc main_arg3 : DevRef τ sig)) (V (Proc.devRef .tc main_arg4 : DevRef τ sig)) (V (Proc.devRef .tc main_arg5 : DevRef τ sig))
          (V (Proc.devRef .tc main_arg6 : DevRef τ sig)) := by
  simp only [after_cons, after_nil]
  rfl

/-! Each argument array is written by no operation: the fold leaves it as launched. -/

theorem arg0_eq (V : Valuation τ sig (Elt F)) :
    after ops V (Proc.devRef .tc main_arg0 : DevRef τ sig) = V (Proc.devRef .tc main_arg0 : DevRef τ sig) := by
  simp only [after_cons, after_nil]
  rfl

theorem arg1_eq (V : Valuation τ sig (Elt F)) :
    after ops V (Proc.devRef .tc main_arg1 : DevRef τ sig) = V (Proc.devRef .tc main_arg1 : DevRef τ sig) := by
  simp only [after_cons, after_nil]
  rfl

theorem arg2_eq (V : Valuation τ sig (Elt F)) :
    after ops V (Proc.devRef .tc main_arg2 : DevRef τ sig) = V (Proc.devRef .tc main_arg2 : DevRef τ sig) := by
  simp only [after_cons, after_nil]
  rfl

theorem arg3_eq (V : Valuation τ sig (Elt F)) :
    after ops V (Proc.devRef .tc main_arg3 : DevRef τ sig) = V (Proc.devRef .tc main_arg3 : DevRef τ sig) := by
  simp only [after_cons, after_nil]
  rfl

theorem arg4_eq (V : Valuation τ sig (Elt F)) :
    after ops V (Proc.devRef .tc main_arg4 : DevRef τ sig) = V (Proc.devRef .tc main_arg4 : DevRef τ sig) := by
  simp only [after_cons, after_nil]
  rfl

theorem arg5_eq (V : Valuation τ sig (Elt F)) :
    after ops V (Proc.devRef .tc main_arg5 : DevRef τ sig) = V (Proc.devRef .tc main_arg5 : DevRef τ sig) := by
  simp only [after_cons, after_nil]
  rfl

theorem arg6_eq (V : Valuation τ sig (Elt F)) :
    after ops V (Proc.devRef .tc main_arg6 : DevRef τ sig) = V (Proc.devRef .tc main_arg6 : DevRef τ sig) := by
  simp only [after_cons, after_nil]
  rfl

/-- On every device, from any memory with zero counters: the result array ends at the staged term of the arguments'
    launch contents, and each argument array as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
        = Term.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v50).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.HandRun

end
-- ==== Proof.RefHeads.lean ====
/-
  The fused projection and its split into heads, read at an index at the ideal values.  Feature `j` of row `R` of the
  fused projection is `∑ₖ x[R,k] · W[j,k] + b[j]`; the reshape to (1, 3, 8, 512) and the transpose put feature
  `4096·w + 512·h + d` at stack `w`, head `h`, depth `d`, so the queries, keys and values of head `h` at depth `d` are
  features `512h + d`, `4096 + 512h + d` and `8192 + 512h + d`.  Finite operands give finite entries throughout.
-/
import proofs.«166793_j8761733284269_1_alg».proof.Proof.LayerSpec
import proofs.«166793_j8761733284269_1_alg».proof.Proof.RefTerm
import proofs.«166793_j8761733284269_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Heads

open Idealize.ShloMosaic Cert.ReferenceIdeal Cert.ReferenceIdeal.Gen Cert.ReferenceIdeal.Term Cert.VNorm
open Idealize.ShloMosaic.ValueIdx

/-- Feature `4096·w + 512·h + d` of the 12288. -/
def feat (w : Fin 3) (h : Fin 8) (d : Fin 512) : Fin 12288 :=
  ⟨4096 * w.val + 512 * h.val + d.val, by have := w.isLt; have := h.isLt; have := d.isLt; omega⟩

/-! ### The contraction of the fused projection: its operand indices, axis by axis -/

/-- The left operand's row is the output's row. -/
theorem lhs_fused_0 (i : S8192x12288.Idx) (q : dot_S8192x4096_S4096x12288_S8192x12288_1_0_0_1_n_n.contr.Idx) :
    (dot_S8192x4096_S4096x12288_S8192x12288_1_0_0_1_n_n.lhsIdx i q 0).val = (i 0).val := by
  unfold DotDims.lhsIdx
  rw [dif_neg (show ¬(0 : Fin S8192x4096.rank) ∈ dot_S8192x4096_S4096x12288_S8192x12288_1_0_0_1_n_n.lhsBatch by decide),
    dif_pos (show (0 : Fin S8192x4096.rank) ∈ dot_S8192x4096_S4096x12288_S8192x12288_1_0_0_1_n_n.lhsNonContracting by decide)]
  rfl
/-- The left operand's column is the contraction position. -/
theorem lhs_fused_1 (i : S8192x12288.Idx) (q : dot_S8192x4096_S4096x12288_S8192x12288_1_0_0_1_n_n.contr.Idx) :
    (dot_S8192x4096_S4096x12288_S8192x12288_1_0_0_1_n_n.lhsIdx i q 1).val = (q ⟨0, by decide⟩).val :=
  dot_S8192x4096_S4096x12288_S8192x12288_1_0_0_1_n_n.lhsIdx_val_of_single rfl i q
/-- The right operand's row is the contraction position. -/
theorem rhs_fused_0 (i : S8192x12288.Idx) (q : dot_S8192x4096_S4096x12288_S8192x12288_1_0_0_1_n_n.contr.Idx) :
    (dot_S8192x4096_S4096x12288_S8192x12288_1_0_0_1_n_n.rhsIdx i q 0).val = (q ⟨0, by decide⟩).val :=
  dot_S8192x4096_S4096x12288_S8192x12288_1_0_0_1_n_n.rhsIdx_val_of_single rfl i q
/-- The right operand's column is the output's column. -/
theorem rhs_fused_1 (i : S8192x12288.Idx) (q : dot_S8192x4096_S4096x12288_S8192x12288_1_0_0_1_n_n.contr.Idx) :
    (dot_S8192x4096_S4096x12288_S8192x12288_1_0_0_1_n_n.rhsIdx i q 1).val = (i 1).val := by
  unfold DotDims.rhsIdx
  rw [dif_neg (show ¬(1 : Fin S4096x12288.rank) ∈ dot_S8192x4096_S4096x12288_S8192x12288_1_0_0_1_n_n.rhsBatch by decide),
    dif_pos (show (1 : Fin S4096x12288.rank) ∈ dot_S8192x4096_S4096x12288_S8192x12288_1_0_0_1_n_n.rhsNonContracting by decide)]
  rfl

/-- The product at row `R`, column `j`: the sum over the 4096 contraction positions. -/
theorem dot_fused_apply (x : Vec Ideal S8192x4096 .f32) (y : Vec Ideal S4096x12288 .f32) (R : Fin 8192) (j : Fin 12288) :
    Host.dotGeneral (F := Ideal) (φ₁ := .f32) (φ₂ := .f32) dot_S8192x4096_S4096x12288_S8192x12288_1_0_0_1_n_n none x y (ix2 R j)
      = ∑ k : Fin 4096, x (ix2 R k) * y (ix2 k j) := by
  simp only [Host.dotGeneral]
  rw [Ideal.dotGeneral_apply,
    ← Equiv.sum_comp (contrEquiv1 dot_S8192x4096_S4096x12288_S8192x12288_1_0_0_1_n_n 4096 rfl rfl).symm]
  refine Finset.sum_congr rfl fun k _ => ?_
  have hk := contrEquiv1_symm_val dot_S8192x4096_S4096x12288_S8192x12288_1_0_0_1_n_n 4096 rfl rfl k
  have el : dot_S8192x4096_S4096x12288_S8192x12288_1_0_0_1_n_n.lhsIdx (ix2 R j)
      ((contrEquiv1 dot_S8192x4096_S4096x12288_S8192x12288_1_0_0_1_n_n 4096 rfl rfl).symm k) = ix2 R k :=
    funext fun a => Fin.ext (by
      match a with
      | ⟨0, _⟩ => exact lhs_fused_0 _ _
      | ⟨1, _⟩ => exact (lhs_fused_1 _ _).trans hk)
  have er : dot_S8192x4096_S4096x12288_S8192x12288_1_0_0_1_n_n.rhsIdx (ix2 R j)
      ((contrEquiv1 dot_S8192x4096_S4096x12288_S8192x12288_1_0_0_1_n_n 4096 rfl rfl).symm k) = ix2 k j :=
    funext fun a => Fin.ext (by
      match a with
      | ⟨0, _⟩ => exact (rhs_fused_0 _ _).trans hk
      | ⟨1, _⟩ => exact rhs_fused_1 _ _)
  rw [el, er]

/-- The transposed weights at `(k, j)` are the weights at `(j, k)`. -/
theorem wT_apply (W : Vec Ideal S12288x4096 .f32) (hT : S12288x4096.Transposes [1, 0] S4096x12288) (k : Fin 4096) (j : Fin 12288) :
    transpose S4096x12288 [1, 0] W hT (ix2 k j) = W (ix2 j k) :=
  transpose_apply _ _ _ _ _ (fun b => match b with | ⟨0, _⟩ => rfl | ⟨1, _⟩ => rfl)

/-- The bias laid along every row: `b[j]` at `(R, j)`. -/
theorem bias_apply (b : Vec Ideal S12288 .f32) (h1 : S12288.BroadcastsInDim S1x12288 (![1] : Fin 1 → Fin S1x12288.rank))
    (h2 : S1x12288.BroadcastsInDim S8192x12288 (![0, 1] : Fin 2 → Fin S8192x12288.rank)) (R : Fin 8192) (j : Fin 12288) :
    broadcastInDim S8192x12288 ![0, 1] h2 (broadcastInDim S1x12288 ![1] h1 b) (ix2 R j) = b (ix1 j) := by
  refine (broadcastInDim_apply _ _ _ _ (ix2 (0 : Fin 1) j) (fun a => match a with | ⟨0, _⟩ => rfl | ⟨1, _⟩ => rfl)).trans ?_
  exact broadcastInDim_apply _ _ _ _ (ix1 j) (fun a => match a with | ⟨0, _⟩ => rfl)

/-- The fused projection at row `R`, feature `j`. -/
theorem fused_apply (x : Vec Ideal S8192x4096 .f32) (W : Vec Ideal S12288x4096 .f32) (b : Vec Ideal S12288 .f32)
    (R : Fin 8192) (j : Fin 12288) :
    fused (F := Ideal) x W b (ix2 R j) = (∑ k : Fin 4096, x (ix2 R k) * W (ix2 j k)) + b (ix1 j) := by
  unfold fused
  rw [addf_apply, dot_fused_apply, bias_apply]
  refine congrArg (· + b (ix1 j)) (Finset.sum_congr rfl fun k _ => ?_)
  rw [wT_apply]

/-- Finite operands give a finite fused projection. -/
theorem fused_isReal (x : Vec Ideal S8192x4096 .f32) (W : Vec Ideal S12288x4096 .f32) (b : Vec Ideal S12288 .f32)
    (hx : ∀ i, IsReal (x i)) (hW : ∀ i, IsReal (W i)) (hb : ∀ i, IsReal (b i)) : ∀ i, IsReal (fused (F := Ideal) x W b i) := by
  intro i
  obtain ⟨R, j, rfl⟩ : ∃ (R : Fin 8192) (j : Fin 12288), i = ix2 R j := ⟨i 0, i 1, eq_ix2 i⟩
  rw [fused_apply]
  exact (IsReal.sum _ _ fun k _ => (hx _).mul (hW _)).add (hb _)

/-! ### The split into stacks of heads -/

/-- Stack `w`, row `R`, head `h`, depth `d` of the split is feature `4096w + 512h + d` of row `R`: the reshape is
    row-major and the transpose moves the stack axis to the front. -/
theorem split_apply (a : Vec Ideal S8192x12288 .f32) (w : Fin 3) (R : Fin 8192) (h : Fin 8) (d : Fin 512) :
    split (F := Ideal) a (ix5 w R h (0 : Fin 1) d) = a (ix2 R (feat w h d)) := by
  unfold split
  refine (transpose_apply _ _ _ _ (ix5 R (0 : Fin 1) w h d)
    (fun b => match b with | ⟨0, _⟩ => rfl | ⟨1, _⟩ => rfl | ⟨2, _⟩ => rfl | ⟨3, _⟩ => rfl | ⟨4, _⟩ => rfl)).trans ?_
  refine shapeCast_apply _ _ _ (ix2 R (feat w h d)) ?_
  rw [Shape.rowMajor_val_two, Shape.rowMajor_val_five]
  show R.val * 12288 + (4096 * w.val + 512 * h.val + d.val) = ((((R.val * 1 + 0) * 3 + w.val) * 8 + h.val) * 512 + d.val)
  omega

/-- Stack `w` cut out and its unit axis dropped: row `R`, head `h`, depth `d` of it is the stacks' entry `(w, R, h, 0, d)`. -/
theorem stack_apply (t : Vec Ideal S3x8192x8x1x512 .f32) (o : Nat) (w : Fin 3) (hw : w.val = o)
    (hs : S3x8192x8x1x512.Slices ![o, 0, 0, 0, 0] S1x8192x8x1x512) (hc : S1x8192x8x1x512.ShapeCasts S8192x8x1x512)
    (R : Fin 8192) (h : Fin 8) (d : Fin 512) :
    shapeCast S8192x8x1x512 (extractStridedSlice S1x8192x8x1x512 ![o, 0, 0, 0, 0] t hs) hc (ix4 R h (0 : Fin 1) d)
      = t (ix5 w R h (0 : Fin 1) d) := by
  refine (shapeCast_apply _ _ _ (ix5 (0 : Fin 1) R h (0 : Fin 1) d) (by
    rw [Shape.rowMajor_val_five, Shape.rowMajor_val_four]
    show ((((0 * 8192 + R.val) * 8 + h.val) * 1 + 0) * 512 + d.val) = (((R.val * 8 + h.val) * 1 + 0) * 512 + d.val)
    omega)).trans ?_
  exact extractStridedSlice_apply _ _ _ _ _ (fun a => match a with
    | ⟨0, _⟩ => by show w.val = o + 0; omega
    | ⟨1, _⟩ => by show R.val = 0 + R.val; omega
    | ⟨2, _⟩ => by show h.val = 0 + h.val; omega
    | ⟨3, _⟩ => by show 0 = 0 + 0; omega
    | ⟨4, _⟩ => by show d.val = 0 + d.val; omega)

/-- The queries of head `h` at depth `d` are feature `512h + d`. -/
theorem headQ_apply (a : Vec Ideal S8192x12288 .f32) (R : Fin 8192) (h : Fin 8) (d : Fin 512) :
    headQ (F := Ideal) (split a) (ix4 R h (0 : Fin 1) d) = a (ix2 R (feat 0 h d)) := by
  unfold headQ
  rw [stack_apply _ 0 0 rfl, split_apply]
/-- The keys: feature `4096 + 512h + d`. -/
theorem headK_apply (a : Vec Ideal S8192x12288 .f32) (R : Fin 8192) (h : Fin 8) (d : Fin 512) :
    headK (F := Ideal) (split a) (ix4 R h (0 : Fin 1) d) = a (ix2 R (feat 1 h d)) := by
  unfold headK
  rw [stack_apply _ 1 1 rfl, split_apply]
/-- The values: feature `8192 + 512h + d`. -/
theorem headV_apply (a : Vec Ideal S8192x12288 .f32) (R : Fin 8192) (h : Fin 8) (d : Fin 512) :
    headV (F := Ideal) (split a) (ix4 R h (0 : Fin 1) d) = a (ix2 R (feat 2 h d)) := by
  unfold headV
  rw [stack_apply _ 2 2 rfl, split_apply]

/-- Queries and keys of a finite projection are finite. -/
theorem headQ_isReal (a : Vec Ideal S8192x12288 .f32) (ha : ∀ i, IsReal (a i)) : ∀ i, IsReal (headQ (F := Ideal) (split a) i) := by
  intro i
  obtain ⟨R, h, u, d, rfl⟩ : ∃ (R : Fin 8192) (h : Fin 8) (u : Fin 1) (d : Fin 512), i = ix4 R h u d :=
    ⟨i 0, i 1, i 2, i 3, eq_ix4 i⟩
  obtain rfl : u = 0 := Subsingleton.elim _ _
  rw [headQ_apply]
  exact ha _
theorem headK_isReal (a : Vec Ideal S8192x12288 .f32) (ha : ∀ i, IsReal (a i)) : ∀ i, IsReal (headK (F := Ideal) (split a) i) := by
  intro i
  obtain ⟨R, h, u, d, rfl⟩ : ∃ (R : Fin 8192) (h : Fin 8) (u : Fin 1) (d : Fin 512), i = ix4 R h u d :=
    ⟨i 0, i 1, i 2, i 3, eq_ix4 i⟩
  obtain rfl : u = 0 := Subsingleton.elim _ _
  rw [headK_apply]
  exact ha _

end Cert.ReferenceIdeal.Heads

end
-- ==== Proof.RefAttention.lean ====
/-
  The attention over a key axis of ONE element, at the ideal values.  A head's logit is a finite sum of finite products,
  scaled by a finite constant: finite.  The softmax of a single finite logit `s` is `exp (s - s) / (0 + exp (s - s)) = 1`
  (the maximum over the one element, taken from `-∞`, is `s`).  Weights that are all `1` give each head its value row,
  and laying the heads back side by side puts head `h`, depth `d` at feature `512h + d`.
-/
import proofs.«166793_j8761733284269_1_alg».proof.Proof.LayerSpec
import proofs.«166793_j8761733284269_1_alg».proof.Proof.RefTerm
import proofs.«166793_j8761733284269_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Attention

open Idealize.ShloMosaic Cert.ReferenceIdeal Cert.ReferenceIdeal.Gen Cert.ReferenceIdeal.Term Cert.VNorm
open Idealize.ShloMosaic.ValueIdx

/-- Feature `512·h + d` of the 4096. -/
def headFeat (h : Fin 8) (d : Fin 512) : Fin 4096 := ⟨512 * h.val + d.val, by have := h.isLt; have := d.isLt; omega⟩

/-- The scale `1/64` is a real number. -/
theorem scale_isReal : IsReal (Ideal.ofBits .f32 0x3C800000#32) := by
  simp [Ideal.ofBits, Ideal.ieee]
  exact IsReal.mul (IsReal.coe _) (IsReal.coe _)

/-- Finite queries and keys give finite logits. -/
theorem logits_isReal (q k : Vec Ideal S8192x8x1x512 .f32) (hq : ∀ i, IsReal (q i)) (hk : ∀ i, IsReal (k i)) :
    ∀ i, IsReal (logits (F := Ideal) q k i) := by
  intro i
  unfold logits
  simp only [Host.dotGeneral]
  rw [mulf_apply, Ideal.dotGeneral_apply]
  exact IsReal.mul (IsReal.sum _ _ fun kk _ => IsReal.mul (hq _) (hk _)) scale_isReal

/-- The word of `-∞`. -/
theorem negInf_eq : Ideal.ofBits .f32 0xFF800000#32 = (⊥ : EReal) := by
  simp [Ideal.ofBits, Ideal.ieee]

/-- One over one. -/
theorem div_one_one : Ideal.div 1 1 = 1 := by
  unfold Ideal.div
  rw [if_neg one_ne_zero, inv_one, mul_one]

/-- The host's exponential at an index. -/
theorem hostExp_apply {s : Shape} {φ : FTy} (x : FVec Ideal s φ) (i : s.Idx) : Host.exp x i = Ideal.exp (x i) := rfl

/-- The host's quotient at an index. -/
theorem hostDivf_apply {s : Shape} {φ : FTy} (x y : FVec Ideal s φ) (i : s.Idx) :
    Host.divf x y i = Ideal.div (x i) (y i) := rfl

/-- A fold over an index set of one element combines that element with the start. -/
theorem fold_fin_one {α : Type} (op : α → α → α) [Std.Commutative op] [Std.Associative op] (b : α) {n : Nat} (hn : n = 1)
    (f : Fin n → α) : (Finset.univ : Finset (Fin n)).fold op b f = op (f ⟨0, by omega⟩) b := by
  subst hn
  rw [Finset.univ_unique, Finset.fold_singleton]
  rfl

/-- A sum over an index set of one element is that element. -/
theorem sum_fin_one {n : Nat} (hn : n = 1) (f : Fin n → EReal) : ∑ k : Fin n, f k = f ⟨0, by omega⟩ := by
  subst hn
  exact Fin.sum_univ_one f

/-- The key axis dropped. -/
theorem reduces_keys : S8192x8x1x1.Reduces [3] S8192x8x1 := by decide

/-- The one key put back. -/
theorem lift_key (R : Fin 8192) (h : Fin 8) (a : Fin 1) (k : Fin (S8192x8x1x1.size 3)) :
    reduces_keys.lift (ix3 R h a) k = ix4 R h a (0 : Fin 1) := by
  funext c; apply Fin.ext
  match c with
  | ⟨0, _⟩ => rfl
  | ⟨1, _⟩ => rfl
  | ⟨2, _⟩ => rfl
  | ⟨3, _⟩ => exact Fin.val_eq_zero k

/-- The maximum over the one key, taken from `-∞`, is the logit. -/
theorem max_key (s : FVec Ideal S8192x8x1x1 .f32) (h' : S8192x8x1x1.ReducesTo [3] S8192x8x1) (hu : 0 < S_.numel)
    (R : Fin 8192) (h : Fin 8) (a : Fin 1) :
    Host.reduce FloatOps.maximumf s (constant (F := Ideal) S_ .f32 0xFF800000#32) h' hu (ix3 R h a) = s (ix4 R h a 0) := by
  rw [Host.reduce_eq_fold_single FloatOps.maximumf s _ h' reduces_keys hu (ix3 R h a),
    fold_fin_one (n := S8192x8x1x1.size 3) _ _ rfl]
  show max (s (reduces_keys.lift (ix3 R h a) _)) (Ideal.ofBits .f32 0xFF800000#32) = _
  rw [lift_key, negInf_eq]
  exact max_bot_right _

/-- The sum over the one key, taken from zero, is the summand. -/
theorem sum_key (x : FVec Ideal S8192x8x1x1 .f32) (h' : S8192x8x1x1.ReducesTo [3] S8192x8x1) (hu : 0 < S_.numel)
    (R : Fin 8192) (h : Fin 8) (a : Fin 1) :
    Host.reduceAdd x (constant (F := Ideal) S_ .f32 0x00000000#32) h' hu (ix3 R h a) = x (ix4 R h a 0) := by
  show Ideal.hostReduceAdd h' x (Ideal.ofBits .f32 0x00000000#32) (ix3 R h a) = _
  rw [Ideal.hostReduceAdd_single h' reduces_keys, sum_fin_one (n := S8192x8x1x1.size 3) rfl, lift_key,
    Ideal.ofBits_zero_f32, zero_add]

/-- The key-axis broadcast reads the row's one entry. -/
theorem bcast_key (y : FVec Ideal S8192x8x1 .f32) (hb : S8192x8x1.BroadcastsInDim S8192x8x1x1 (![0, 1, 2] : Fin 3 → Fin S8192x8x1x1.rank))
    (R : Fin 8192) (h : Fin 8) (a b : Fin 1) :
    broadcastInDim S8192x8x1x1 ![0, 1, 2] hb y (ix4 R h a b) = y (ix3 R h a) := by
  refine broadcastInDim_apply _ hb y _ _ fun c => ?_
  match c with
  | ⟨0, _⟩ => rfl
  | ⟨1, _⟩ => rfl
  | ⟨2, _⟩ => exact Fin.val_eq_zero a

/-- `exp (s - max s)` over the one key is `exp 0 = 1`. -/
theorem expShift_one (s : Vec Ideal S8192x8x1x1 .f32) (hs : ∀ i, IsReal (s i)) (i : S8192x8x1x1.Idx) :
    expShift (F := Ideal) s i = 1 := by
  obtain ⟨R, h, a, b, rfl⟩ : ∃ (R : Fin 8192) (h : Fin 8) (a : Fin 1) (b : Fin 1), i = ix4 R h a b :=
    ⟨i 0, i 1, i 2, i 3, eq_ix4 i⟩
  obtain rfl : b = 0 := Subsingleton.elim _ _
  unfold expShift
  rw [hostExp_apply, subf_apply, bcast_key, maximumf_apply, max_key]
  show Ideal.exp (s (ix4 R h a 0) - max (Ideal.ofBits .f32 0xFF800000#32) (s (ix4 R h a 0))) = 1
  rw [negInf_eq, max_bot_left]
  obtain ⟨r, hr⟩ := (hs (ix4 R h a 0)).exists_coe
  rw [hr, ← EReal.coe_sub, sub_self, Ideal.exp_coe, Real.exp_zero, EReal.coe_one]

/-- The softmax over one finite logit is `1`. -/
theorem softmax_one (s : Vec Ideal S8192x8x1x1 .f32) (hs : ∀ i, IsReal (s i)) : ∀ i, softmax (F := Ideal) s i = 1 := by
  intro i
  obtain ⟨R, h, a, b, rfl⟩ : ∃ (R : Fin 8192) (h : Fin 8) (a : Fin 1) (b : Fin 1), i = ix4 R h a b :=
    ⟨i 0, i 1, i 2, i 3, eq_ix4 i⟩
  unfold softmax
  rw [hostDivf_apply, bcast_key, sum_key, expShift_one s hs, expShift_one s hs, div_one_one]

/-- The dimension numbers of the weights-by-values product: batch axes (row, head), the key axis contracted. -/
abbrev Dmix := dot_S8192x8x1x1_S8192x8x1x512_S8192x8x1x512_3_2_2_3_01_01

/-- The value operand's row is the result's row, -/
theorem rhs_mix_0 (j : S8192x8x1x512.Idx) (k : Dmix.contr.Idx) : (Dmix.rhsIdx j k 0 : ℕ) = j 0 := by
  simp [DotDims.rhsIdx, Dmix, dot_S8192x8x1x1_S8192x8x1x512_S8192x8x1x512_3_2_2_3_01_01]; rfl
/-- its head the result's head, -/
theorem rhs_mix_1 (j : S8192x8x1x512.Idx) (k : Dmix.contr.Idx) : (Dmix.rhsIdx j k 1 : ℕ) = j 1 := by
  simp [DotDims.rhsIdx, Dmix, dot_S8192x8x1x1_S8192x8x1x512_S8192x8x1x512_3_2_2_3_01_01]; rfl
/-- and its depth the result's depth. -/
theorem rhs_mix_3 (j : S8192x8x1x512.Idx) (k : Dmix.contr.Idx) : (Dmix.rhsIdx j k 3 : ℕ) = j 3 := by
  simp [DotDims.rhsIdx, Dmix, dot_S8192x8x1x1_S8192x8x1x512_S8192x8x1x512_3_2_2_3_01_01]; rfl

/-- With unit weights the product over the one key is the value itself. -/
theorem dot_mix (w : FVec Ideal S8192x8x1x1 .f32) (v : FVec Ideal S8192x8x1x512 .f32) (hw : ∀ i, w i = 1)
    (R : Fin 8192) (h : Fin 8) (d : Fin 512) :
    Host.dotGeneral Dmix none w v (ix4 R h (0 : Fin 1) d) = v (ix4 R h (0 : Fin 1) d) := by
  simp only [Host.dotGeneral]
  rw [Ideal.dotGeneral_apply]
  have e : ∀ kk : Dmix.contr.Idx,
      w (Dmix.lhsIdx (ix4 R h (0 : Fin 1) d) kk) * v (Dmix.rhsIdx (ix4 R h (0 : Fin 1) d) kk) = v (ix4 R h (0 : Fin 1) d) := fun kk => by
    rw [hw, one_mul]
    refine congrArg v (funext fun a => Fin.ext ?_)
    match a with
    | ⟨0, _⟩ => exact rhs_mix_0 _ _
    | ⟨1, _⟩ => exact rhs_mix_1 _ _
    | ⟨2, _⟩ =>
      have hlt : (Dmix.rhsIdx (ix4 R h (0 : Fin 1) d) kk 2).val < 1 := (Dmix.rhsIdx (ix4 R h (0 : Fin 1) d) kk 2).isLt
      show (Dmix.rhsIdx (ix4 R h (0 : Fin 1) d) kk 2).val = 0
      omega
    | ⟨3, _⟩ => exact rhs_mix_3 _ _
  rw [Finset.sum_congr rfl fun kk _ => e kk]
  exact (Fintype.sum_equiv (contrEquiv1 Dmix 1 rfl rfl) _ (fun _ : Fin 1 => v (ix4 R h (0 : Fin 1) d)) fun _ => rfl).trans
    (Fin.sum_univ_one _)

/-- The transpose swaps the head axis and the key axis. -/
theorem transpose_heads (x : FVec Ideal S8192x8x1x512 .f32) (ht : S8192x8x1x512.Transposes [0, 2, 1, 3] S8192x1x8x512)
    (R : Fin 8192) (h : Fin 8) (d : Fin 512) :
    transpose S8192x1x8x512 [0, 2, 1, 3] x ht (ix4 R (0 : Fin 1) h d) = x (ix4 R h (0 : Fin 1) d) := by
  refine transpose_apply _ x ht _ _ fun b => ?_
  match b with
  | ⟨0, _⟩ => rfl
  | ⟨1, _⟩ => rfl
  | ⟨2, _⟩ => rfl
  | ⟨3, _⟩ => rfl

/-- The reshape lays head `h`, depth `d` of a row at feature `512h + d`: the same row-major position. -/
theorem rows_apply (x : FVec Ideal S8192x1x8x512 .f32) (hc : S8192x1x8x512.ShapeCasts S8192x4096)
    (R : Fin 8192) (h : Fin 8) (d : Fin 512) :
    shapeCast S8192x4096 x hc (ix2 R (headFeat h d)) = x (ix4 R (0 : Fin 1) h d) := by
  refine shapeCast_apply x hc _ _ ?_
  rw [Shape.rowMajor_val_four, Shape.rowMajor_val_two]
  show ((R.val * 1 + 0) * 8 + h.val) * 512 + d.val = R.val * 4096 + (512 * h.val + d.val)
  omega

/-- Unit weights hand each head its values, laid out as one row. -/
theorem mix_apply (w : Vec Ideal S8192x8x1x1 .f32) (v : Vec Ideal S8192x8x1x512 .f32) (hw : ∀ i, w i = 1)
    (R : Fin 8192) (h : Fin 8) (d : Fin 512) :
    mix (F := Ideal) w v (ix2 R (headFeat h d)) = v (ix4 R h (0 : Fin 1) d) := by
  unfold mix
  rw [rows_apply, transpose_heads]
  exact dot_mix w v hw R h d

end Cert.ReferenceIdeal.Attention

end
-- ==== Proof.RefNorm.lean ====
/-
  The output projection and the row normalisation of the reference, read at an index at the ideal values: the projection
  is the affine layer `dense`; each row's mean is its sum over 4096; jnp.var's divisor `4096 - 0` is positive, so its guard
  selects the quotient and the variance is the mean of the squared deviations; the result is `lnRow` of the row.
-/
import proofs.«166793_j8761733284269_1_alg».proof.Proof.LayerSpec
import proofs.«166793_j8761733284269_1_alg».proof.Proof.RefTerm
import proofs.«166793_j8761733284269_1_alg».proof.Proof.Gen.ReferenceIdeal
import Idealize.ShloMosaic.Lib.Pipeline.Value
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.Norm

open Idealize.ShloMosaic Cert.ReferenceIdeal Cert.ReferenceIdeal.Gen Cert.ReferenceIdeal.Term Cert.VNorm
open Idealize.ShloMosaic.ValueIdx

/-! ## The layout operations at an index -/

section Layout
variable {α : Type}

/-- A column broadcast along the features reads the column at the row. -/
theorem bcastCol_apply (x : S8192x1.Idx → α) (h : S8192x1.BroadcastsInDim S8192x4096 (![0, 1] : Fin 2 → Fin S8192x4096.rank))
    (R : Fin 8192) (n : Fin 4096) :
    broadcastInDim S8192x4096 ![0, 1] h x (ix2 R n) = x (ix2 R (0 : Fin 1)) :=
  broadcastInDim_apply _ h x _ _ fun a => match a with | ⟨0, _⟩ => rfl | ⟨1, _⟩ => rfl

/-- A one-row matrix broadcast down the rows reads the row at the feature. -/
theorem bcastRow_apply (x : S1x4096.Idx → α) (h : S1x4096.BroadcastsInDim S8192x4096 (![0, 1] : Fin 2 → Fin S8192x4096.rank))
    (R : Fin 8192) (n : Fin 4096) :
    broadcastInDim S8192x4096 ![0, 1] h x (ix2 R n) = x (ix2 (0 : Fin 1) n) :=
  broadcastInDim_apply _ h x _ _ fun a => match a with | ⟨0, _⟩ => rfl | ⟨1, _⟩ => rfl

/-- A vector laid as a one-row matrix reads the vector at the feature. -/
theorem vecRow_apply (x : S4096.Idx → α) (h : S4096.BroadcastsInDim S1x4096 (![1] : Fin 1 → Fin S1x4096.rank))
    (u : Fin 1) (n : Fin 4096) :
    broadcastInDim S1x4096 ![1] h x (ix2 u n) = x (ix1 n) :=
  broadcastInDim_apply _ h x _ _ fun a => match a with | ⟨0, _⟩ => rfl

/-- A vector laid as a column reads the vector at the row. -/
theorem vecCol_apply (x : S8192.Idx → α) (h : S8192.BroadcastsInDim S8192x1 (![0] : Fin 1 → Fin S8192x1.rank))
    (R : Fin 8192) (u : Fin 1) :
    broadcastInDim S8192x1 ![0] h x (ix2 R u) = x (ix1 R) :=
  broadcastInDim_apply _ h x _ _ fun a => match a with | ⟨0, _⟩ => rfl

/-- A vector broadcast down the rows through a one-row matrix reads the vector at the feature. -/
theorem vecRows_apply (x : S4096.Idx → α) (h : S1x4096.BroadcastsInDim S8192x4096 (![0, 1] : Fin 2 → Fin S8192x4096.rank))
    (h' : S4096.BroadcastsInDim S1x4096 (![1] : Fin 1 → Fin S1x4096.rank)) (R : Fin 8192) (n : Fin 4096) :
    broadcastInDim S8192x4096 ![0, 1] h (broadcastInDim S1x4096 ![1] h' x) (ix2 R n) = x (ix1 n) := by
  rw [bcastRow_apply, vecRow_apply]

end Layout

/-- A row's sum from the zero word: the sum of the row's entries. -/
theorem rowSum_apply (x : FVec Ideal S8192x4096 .f32) (h : S8192x4096.ReducesTo [1] S8192) (hu : 0 < S_.numel) (R : Fin 8192) :
    Host.reduceAdd x (constant (F := Ideal) S_ .f32 0x00000000#32) h hu (ix1 R) = ∑ k : Fin 4096, x (ix2 R k) := by
  have hr : S8192x4096.Reduces [1] S8192 := by decide
  rw [hostReduceAdd_apply, Ideal.hostReduceAdd_single h hr, constant_apply, Ideal.ofBits_zero_f32, zero_add]
  refine Finset.sum_congr rfl fun k _ => congrArg x ?_
  funext a
  apply Fin.ext
  match a with
  | ⟨0, _⟩ => rfl
  | ⟨1, _⟩ => rfl

/-! ## The output projection -/

/-- The projection's dimension numbers are those of the plain matrix product. -/
theorem dot_eq_plain :
    dot_S8192x4096_S4096x4096_S8192x4096_1_0_0_1_n_n = DotDims.plain 8192 4096 4096 := rfl

/-- The output projection is the affine layer. -/
theorem outProj_apply (o : Vec Ideal S8192x4096 .f32) (Wp : Vec Ideal S4096x4096 .f32) (bp : Vec Ideal S4096 .f32)
    (R : Fin 8192) (n : Fin 4096) :
    outProj (F := Ideal) o Wp bp (ix2 R n)
      = dense (fun R k => o (ix2 R k)) (fun n k => Wp (ix2 n k)) (fun n => bp (ix1 n)) R n := by
  unfold outProj dense
  rw [addf_apply, vecRows_apply, dot_eq_plain, StackMember.dotGeneral_plain_apply]
  refine congrArg (· + bp (ix1 n)) (Finset.sum_congr rfl fun k _ => ?_)
  rw [transpose_ix2_apply]

/-! ## The row statistics -/

/-- Each row's mean, kept as a column, is the mean of the row. -/
theorem mean_apply (y : Vec Ideal S8192x4096 .f32) (R : Fin 8192) (u : Fin 1) :
    mean (F := Ideal) y (ix2 R u) = rowMean (fun k => y (ix2 R k)) := by
  unfold mean rowMean nFeat
  rw [hostDivf_apply, vecCol_apply, rowSum_apply, broadcastInDim_scalar_apply, constant_apply]

/-- The divisor's word is the real 4096. -/
theorem nFeat_eq : nFeat = ((4096 : ℝ) : EReal) := by
  unfold nFeat
  simp [Ideal.ofBits, Ideal.ieee, -EReal.coe_mul]; norm_num

/-- The divisor is positive. -/
theorem nFeat_pos : (0 : EReal) < nFeat := by
  rw [nFeat_eq]
  exact EReal.coe_pos.mpr (by norm_num)

/-- The variance's divisor, the row length less the integer zero read exactly, is the row length. -/
theorem count_apply (i : S_.Idx) : count (F := Ideal) i = nFeat := by
  unfold Term.count nFeat
  rw [subf_apply, constant_apply, sitofp_apply, constantI_apply]
  show Ideal.ofBits .f32 0x45800000#32 - (((0#32 : BitVec 32).toInt : ℝ) : EReal) = _
  rw [show (0#32 : BitVec 32).toInt = 0 from rfl, Int.cast_zero, EReal.coe_zero, sub_zero]

/-- The guard of the variance's quotient holds: the divisor is above zero. -/
theorem count_gt_zero (i : S_.Idx) :
    cmpf .ogt (count (F := Ideal)) (constant (F := Ideal) S_ .f32 0x00000000#32) i = 1#1 := by
  rw [cmpf_apply, count_apply, constant_apply, Ideal.ofBits_zero_f32, Ideal.cmpf_def]
  show BitVec.ofBool (decide ((0 : EReal) < nFeat)) = 1#1
  rw [decide_eq_true nFeat_pos]
  rfl

/-- Each row's variance, kept as a column, is the variance of the row: the guard selects the quotient. -/
theorem variance_apply (y : Vec Ideal S8192x4096 .f32) (R : Fin 8192) (u : Fin 1) :
    variance (F := Ideal) y (ix2 R u) = rowVar (fun k => y (ix2 R k)) := by
  unfold variance rowVar
  rw [select_apply, broadcastInDim_scalar_apply, count_gt_zero, select_one, hostDivf_apply, vecCol_apply, rowSum_apply,
    broadcastInDim_scalar_apply, count_apply]
  refine congrArg (fun s => Ideal.div s nFeat) (Finset.sum_congr rfl fun k _ => ?_)
  rw [mulf_apply, subf_apply, bcastCol_apply, mean_apply]

/-- The host's reciprocal square root at an index is the extended reals'. -/
theorem hostRsqrt_apply {s : Shape} {φ : FTy} (x : FVec Ideal s φ) (i : s.Idx) : Host.rsqrt x i = Ideal.rsqrt (x i) := rfl

/-! ## The normalisation -/

/-- The reference's normalisation is `lnRow` of each row. -/
theorem normalize_apply (y : Vec Ideal S8192x4096 .f32) (γ β : Vec Ideal S4096 .f32) (R : Fin 8192) (n : Fin 4096) :
    normalize (F := Ideal) y γ β (ix2 R n)
      = lnRow (fun k => y (ix2 R k)) (fun n => γ (ix1 n)) (fun n => β (ix1 n)) n := by
  unfold Term.normalize lnRow eps
  rw [addf_apply, mulf_apply, mulf_apply, subf_apply, vecRows_apply, vecRows_apply, bcastCol_apply, bcastCol_apply, mean_apply,
    hostRsqrt_apply, addf_apply, variance_apply, broadcastInDim_scalar_apply, constant_apply]

end Cert.ReferenceIdeal.Norm

end
-- ==== Proof.RefValue.lean ====
/-
  The reference's result at an index is the layer `attnNorm` of its arguments, when the activations, the fused weights and
  the fused bias hold real numbers.  The queries and keys are then finite, so every logit is finite and every softmax
  weight is `1`; a head's output is its value row, which is the value third of the fused projection; the output
  projection and the normalisation follow as the affine layer and `lnRow`.
-/
import proofs.«166793_j8761733284269_1_alg».proof.Proof.LayerSpec
import proofs.«166793_j8761733284269_1_alg».proof.Proof.RefTerm
import proofs.«166793_j8761733284269_1_alg».proof.Proof.RefHeads
import proofs.«166793_j8761733284269_1_alg».proof.Proof.RefAttention
import proofs.«166793_j8761733284269_1_alg».proof.Proof.RefNorm

noncomputable section

namespace Cert.ReferenceIdeal.Value

open Idealize.ShloMosaic Idealize.ShloMosaic.ValueIdx
open Cert.ReferenceIdeal Cert.ReferenceIdeal.Gen Cert.ReferenceIdeal.Term Cert.VNorm
open Cert.ReferenceIdeal.Heads Cert.ReferenceIdeal.Attention Cert.ReferenceIdeal.Norm

/-- Feature `c` of a row is depth `c % 512` of head `c / 512`. -/
theorem exists_headFeat (c : Fin 4096) : ∃ (h : Fin 8) (d : Fin 512), c = headFeat h d :=
  ⟨⟨c.val / 512, by have := c.isLt; omega⟩, ⟨c.val % 512, Nat.mod_lt _ (by decide)⟩, Fin.ext (by
    show c.val = 512 * (c.val / 512) + c.val % 512
    omega)⟩

/-- The value stack's feature of head `h`, depth `d` is the value third's row `512h + d`. -/
theorem feat_two (h : Fin 8) (d : Fin 512) : feat 2 h d = vthird (headFeat h d) :=
  Fin.ext (by show 4096 * 2 + 512 * h.val + d.val = 8192 + (512 * h.val + d.val); omega)

variable (x : Vec Ideal S8192x4096 .f32) (Wqkv : Vec Ideal S12288x4096 .f32) (bqkv : Vec Ideal S12288 .f32)
  (Wp : Vec Ideal S4096x4096 .f32) (bp γ β : Vec Ideal S4096 .f32)

/-- The attention's output row: the value projection. -/
theorem attended_apply (hx : ∀ i, IsReal (x i)) (hW : ∀ i, IsReal (Wqkv i)) (hb : ∀ i, IsReal (bqkv i)) (R : Fin 8192) (c : Fin 4096) :
    mix (F := Ideal) (softmax (logits (headQ (heads x Wqkv bqkv)) (headK (heads x Wqkv bqkv)))) (headV (heads x Wqkv bqkv)) (ix2 R c)
      = dense (fun R k => x (ix2 R k)) (fun c k => Wqkv (ix2 (vthird c) k)) (fun c => bqkv (ix1 (vthird c))) R c := by
  obtain ⟨h, d, rfl⟩ := exists_headFeat c
  have hf := fused_isReal x Wqkv bqkv hx hW hb
  have hone := softmax_one _ (logits_isReal _ _ (headQ_isReal _ hf) (headK_isReal _ hf))
  unfold heads at hone ⊢
  rw [mix_apply _ _ hone R h d, headV_apply, fused_apply, feat_two]
  rfl

/-- The reference's result at row `R`, feature `n`. -/
theorem out_apply (hx : ∀ i, IsReal (x i)) (hW : ∀ i, IsReal (Wqkv i)) (hb : ∀ i, IsReal (bqkv i)) (R : Fin 8192) (n : Fin 4096) :
    Term.out (F := Ideal) x Wqkv bqkv Wp bp γ β (ix2 R n)
      = attnNorm (fun R k => x (ix2 R k)) (fun r k => Wqkv (ix2 r k)) (fun r => bqkv (ix1 r)) (fun n k => Wp (ix2 n k))
          (fun n => bp (ix1 n)) (fun n => γ (ix1 n)) (fun n => β (ix1 n)) R n := by
  unfold Term.out
  rw [normalize_apply]
  have hY : (fun k : Fin 4096 => outProj (F := Ideal)
        (mix (softmax (logits (headQ (heads x Wqkv bqkv)) (headK (heads x Wqkv bqkv)))) (headV (heads x Wqkv bqkv))) Wp bp (ix2 R k))
      = dense (dense (fun R k => x (ix2 R k)) (fun c k => Wqkv (ix2 (vthird c) k)) (fun c => bqkv (ix1 (vthird c))))
          (fun n k => Wp (ix2 n k)) (fun n => bp (ix1 n)) R := by
    funext k
    rw [outProj_apply]
    have hA : (fun (R : Fin 8192) (c : Fin 4096) =>
          mix (F := Ideal) (softmax (logits (headQ (heads x Wqkv bqkv)) (headK (heads x Wqkv bqkv)))) (headV (heads x Wqkv bqkv)) (ix2 R c))
        = dense (fun R k => x (ix2 R k)) (fun c k => Wqkv (ix2 (vthird c) k)) (fun c => bqkv (ix1 (vthird c))) :=
      funext fun R => funext fun c => attended_apply x Wqkv bqkv hx hW hb R c
    rw [hA]
  rw [hY]
  rfl

end Cert.ReferenceIdeal.Value

end
-- ==== Proof.FiniteInputs.lean ====
/-
  What the precondition gives: where `finite_inputs` is all ones, every entry of the activations, of the fused weights
  and of the fused bias is a real number (the other four arrays are finite too, which this proof does not use).
-/
import proofs.«166793_j8761733284269_1_alg».proof.Proof.LayerSpec
import proofs.«166793_j8761733284269_1_alg».proof.Pre_finite_inputs
import proofs.«166793_j8761733284269_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs Cert.Pre_finite_inputs.Gen Cert.VNorm

/-- The rank-zero shape has one index: two of its indices agree at each of their no coordinates. -/
instance : Subsingleton S_.Idx := ⟨fun a b => funext fun d => d.elim0⟩

/-- The word the absolute values are compared against denotes `+∞`: exponent all ones, fraction zero, sign clear. -/
theorem top_word : Ideal.ofBits .f32 0x7F800000#32 = (⊤ : EReal) := by simp [Ideal.ofBits, Ideal.ieee]

/-- `|x| < +∞` makes `x` a real number: at `x = ⊤` and at `x = ⊥` the absolute value `max x (-x)` is `⊤`,
    which is not below `⊤`. -/
theorem isReal_of_abs_lt (x : EReal) (h : Ideal.cmp .olt (max x (-x)) (Ideal.ofBits .f32 0x7F800000#32) = 1#1) :
    IsReal x := by
  rw [top_word] at h
  induction x using EReal.rec with
  | bot => simp [Ideal.cmp] at h
  | coe r => exact IsReal.coe r
  | top => simp [Ideal.cmp] at h

/-- One conjunct of the precondition, over any shape: the conjunction over all axes of `|x i| < +∞` is one only if
    every comparison is one, so every entry of `x` is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) :=
  isReal_of_abs_lt (x i) (Host.reduce_andi_all _ _ hr hu j e i)

/-- Under the precondition the first three arguments hold real numbers only. -/
theorem isReal_of_pre (a0 : FVec Ideal S8192x4096 .f32) (a1 : FVec Ideal S12288x4096 .f32) (a2 : FVec Ideal S12288 .f32)
    (a3 : FVec Ideal S4096x4096 .f32) (a4 a5 a6 : FVec Ideal S4096 .f32)
    (h : Cert.Pre_finite_inputs.fn (F := Ideal) a0 a1 a2 a3 a4 a5 a6 = (fun _ => 1#1)) :
    (∀ i, IsReal (a0 i)) ∧ (∀ i, IsReal (a1 i)) ∧ (∀ i, IsReal (a2 i)) := by
  -- the predicate at its one index: the seven conjuncts joined by `and`, left-nested, the first array innermost
  have h0 := congrFun h ValueIdx.ix0
  dsimp only [Cert.Pre_finite_inputs.fn, Cert.Pre_finite_inputs.fn_part1, andi] at h0
  -- peel the last four conjuncts (arrays seven down to four), then read the third, the second and the first
  obtain ⟨h5, -⟩ := IntOp.andi_eq_one.1 h0
  obtain ⟨h4, -⟩ := IntOp.andi_eq_one.1 h5
  obtain ⟨h3, -⟩ := IntOp.andi_eq_one.1 h4
  obtain ⟨h2, -⟩ := IntOp.andi_eq_one.1 h3
  obtain ⟨h1, e2⟩ := IntOp.andi_eq_one.1 h2
  obtain ⟨e0, e1⟩ := IntOp.andi_eq_one.1 h1
  exact ⟨all_real a0 _ _ _ _ e0, all_real a1 _ _ _ _ e1, all_real a2 _ _ _ _ e2⟩

end Cert.Pre_finite_inputs.Finite

end
-- ==== Proof.lean ====
/-
  The certificate of a multi-head self-attention layer whose sequence has length ONE, written as two tiled matrix
  products with a fused row normalisation, against its reference.

  The reference projects the activations to queries, keys and values, takes each head's one logit, its softmax over the
  one key, the weighted value, the output projection and a layer normalisation.  The softmax of a single FINITE logit is
  `1`, so a head's output is its value row: under the precondition (every input finite) the reference is
  `lnRow (dense (dense x W_v b_v) W_proj b_proj) γ β`, `W_v`, `b_v` the value third of the fused projection
  (`attnNorm`).  The kernel computes exactly that: its first region accumulates `x · W_vᵀ` over 32 feature tiles into an
  output block that stays in place and adds the bias at the last tile; its second region does the same for the output
  projection and, at the last tile, normalises each row of the block.  Over the extended reals the tiled sums are the
  whole sums, whatever their order, and both sides divide by the same words and take the same reciprocal square root.

  The frames of the two kernel programs are the generated ones; the reference's frame is its run with the result
  dropped; the ideal pass rewrote nothing, so `preserves` is `True`.
-/
import proofs.«166793_j8761733284269_1_alg».proof.Defs
import proofs.«166793_j8761733284269_1_alg».proof.Proof.Gen.Kernel
import proofs.«166793_j8761733284269_1_alg».proof.Proof.Gen.Kernel.Skeleton
import proofs.«166793_j8761733284269_1_alg».proof.Proof.Gen.Kernel.Launch
import proofs.«166793_j8761733284269_1_alg».proof.Proof.Gen.Kernel.Points
import proofs.«166793_j8761733284269_1_alg».proof.Proof.Gen.Kernel.Frame
import proofs.«166793_j8761733284269_1_alg».proof.Proof.Gen.KernelIdeal
import proofs.«166793_j8761733284269_1_alg».proof.Proof.Gen.KernelIdeal.Skeleton
import proofs.«166793_j8761733284269_1_alg».proof.Proof.Gen.KernelIdeal.Launch
import proofs.«166793_j8761733284269_1_alg».proof.Proof.Gen.KernelIdeal.Points
import proofs.«166793_j8761733284269_1_alg».proof.Proof.Gen.KernelIdeal.Frame
import proofs.«166793_j8761733284269_1_alg».proof.Proof.Gen.ReferenceIdeal
import proofs.«166793_j8761733284269_1_alg».proof.Proof.Gen.Pre_finite_inputs
import proofs.«166793_j8761733284269_1_alg».proof.Proof.LayerSpec
import proofs.«166793_j8761733284269_1_alg».proof.Proof.KernelValue
import proofs.«166793_j8761733284269_1_alg».proof.Proof.RefRun
import proofs.«166793_j8761733284269_1_alg».proof.Proof.RefValue
import proofs.«166793_j8761733284269_1_alg».proof.Proof.FiniteInputs
import Idealize.ShloMosaic.Adequacy
import Idealize.ShloMosaic.Init

noncomputable section

namespace Cert.Proof

open Idealize.ShloMosaic Idealize.SL.Sem Idealize.ShloMosaic.ValueIdx Cert.VNorm

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- Both programs end at `attnNorm` of arguments that agree: the kernel's two regions by accumulation over the feature
    tiles, the reference because finite inputs make every attention weight `1`. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6⟩ := hagree c
  rw [e0, e1, e2, e3, e4, e5, e6]
  obtain ⟨hx, hW, hb⟩ := Cert.Pre_finite_inputs.Finite.isReal_of_pre _ _ _ _ _ _ _ (hpre c)
  funext i
  obtain ⟨R, n, rfl⟩ : ∃ (R : Fin 8192) (n : Fin 4096), i = ix2 R n := ⟨i 0, i 1, eq_ix2 i⟩
  exact Cert.ReferenceIdeal.Value.out_apply _ _ _ _ _ _ _ hx hW hb R n

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
